-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S1x4x64 : Shape := ⟨3, ![1, 4, 64]⟩
abbrev S_ : Shape := ⟨0, ![]⟩
abbrev S1x800000 : Shape := ⟨2, ![1, 800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S1x4x64 : S_.BroadcastsInDim S1x4x64 (![] : Fin 0 → Fin S1x4x64.rank)
  reducesTo_S1x4x64_S_d0_1_2 : S1x4x64.ReducesTo [0, 1, 2] S_
  slices_S2x800000_S1x800000_0_0 : S2x800000.Slices ![0, 0] S1x800000
  shapeCasts_S1x800000_S800000 : S1x800000.ShapeCasts S800000

variable [Facts]

def fn_part1 {F : FTy → Type} [FloatOps F] (main_arg1 : IVec S2x800000 32) (main_v13 : IVec S_ 1) (main_v16 : IVec S1x4x64 1) : IVec S_ 1 :=
  let main_c_5 : IVec S_ 1 := constantI S_ 1 1#1
  let main_v17 : IVec S_ 1 := (fun x v => Host.reduce IntOp.andi x v reducesTo_S1x4x64_S_d0_1_2 h_S_) main_v16 main_c_5
  let main_v18 : IVec S_ 1 := andi main_v13 main_v17
  let main_v19 : IVec S1x800000 32 := (extractStridedSlice S1x800000 ![0, 0] · slices_S2x800000_S1x800000_0_0) main_arg1
  let main_v20 : IVec S800000 32 := shapeCast S800000 main_v19 shapeCasts_S1x800000_S800000
  let main_c_6 : IVec S_ 32 := constantI S_ 32 4294917296#32
  let main_v21 : IVec S800000 32 := broadcastInDim S800000 ![] bcast_S_S800000 main_c_6
  let main_v22 : IVec S800000 1 := cmpi .sge main_v20 main_v21
  let main_c_7 : IVec S_ 1 := constantI S_ 1 1#1
  let main_v23 : IVec S_ 1 := (fun x v => Host.reduce IntOp.andi x v reducesTo_S800000_S_d0 h_S_) main_v22 main_c_7
  let main_v24 : IVec S_ 1 := andi main_v18 main_v23
  let main_v25 : IVec S1x800000 32 := (extractStridedSlice S1x800000 ![0, 0] · slices_S2x800000_S1x800000_0_0) main_arg1
  let main_v26 : IVec S800000 32 := shapeCast S800000 main_v25 shapeCasts_S1x800000_S800000
  let main_c_8 : IVec S_ 32 := constantI S_ 32 50000#32
  let main_v27 : IVec S800000 32 := broadcastInDim S800000 ![] bcast_S_S800000 main_c_8
  let main_v28 : IVec S800000 1 := cmpi .slt main_v26 main_v27
  let main_c_9 : IVec S_ 1 := constantI S_ 1 1#1
  let main_v29 : IVec S_ 1 := (fun x v => Host.reduce IntOp.andi x v reducesTo_S800000_S_d0 h_S_) main_v28 main_c_9
  let main_v30 : IVec S_ 1 := andi main_v24 main_v29
  main_v30

def fn {F : FTy → Type} [FloatOps F] (main_arg0 : FVec F S50000x128 .f32) (main_arg1 : IVec S2x800000 32) (main_arg2 : FVec F S800000 .f32) (main_arg3 : FVec F S128x128 .f32) (main_arg4 : FVec F S1x4x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1x4x64 .f32 := Host.absf main_arg4
  let main_cst_4 : FVec F S_ .f32 := constant S_ .f32 0x7F800000#32
  let main_v15 : FVec F S1x4x64 .f32 := broadcastInDim S1x4x64 ![] bcast_S_S1x4x64 main_cst_4
  let main_v16 : IVec S1x4x64 1 := cmpf .olt main_v14 main_v15
  fn_part1 (F := F) main_arg1 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S1x4x64 : Shape := ⟨3, ![1, 4, 64]⟩
abbrev S1000x128 : Shape := ⟨2, ![1000, 128]⟩
abbrev S50000x4x32 : Shape := ⟨3, ![50000, 4, 32]⟩
abbrev S1x800000 : Shape := ⟨2, ![1, 800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x4x32 : Shape := ⟨3, ![800000, 4, 32]⟩
abbrev S1x4x32 : Shape := ⟨3, ![1, 4, 32]⟩
abbrev S800000x4 : Shape := ⟨2, ![800000, 4]⟩
abbrev S400x4x32 : Shape := ⟨3, ![400, 4, 32]⟩
abbrev S400x1 : Shape := ⟨2, ![400, 1]⟩
abbrev S400x4 : Shape := ⟨2, ![400, 4]⟩
abbrev S400x4x1 : Shape := ⟨3, ![400, 4, 1]⟩
abbrev S50000x4 : Shape := ⟨2, ![50000, 4]⟩

abbrev nBuf : Space → Nat
  | .hbm => 73
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S1x4x64, .f32⟩
  | .hbm, ⟨5, _⟩ => ⟨S128x128, .f32⟩
  | .hbm, ⟨6, _⟩ => ⟨S50000x128, .f32⟩
  | .hbm, ⟨7, _⟩ => ⟨S50000x4x32, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S1, .i32⟩
  | .hbm, ⟨21, _⟩ => ⟨S_, .i32⟩
  | .hbm, ⟨22, _⟩ => ⟨S800000x1, .i32⟩
  | .hbm, ⟨23, _⟩ => ⟨S800000x1, .i1⟩
  | .hbm, ⟨24, _⟩ => ⟨S1x1, .i32⟩
  | .hbm, ⟨25, _⟩ => ⟨S800000x1, .i32⟩
  | .hbm, ⟨26, _⟩ => ⟨S800000x1, .i1⟩
  | .hbm, ⟨27, _⟩ => ⟨S800000x1, .i1⟩
  | .hbm, ⟨28, _⟩ => ⟨S_, .i1⟩
  | .hbm, ⟨29, _⟩ => ⟨S800000, .i1⟩
  | .hbm, ⟨30, _⟩ => ⟨S800000x4x32, .f32⟩
  | .hbm, ⟨31, _⟩ => ⟨S800000x4x32, .i1⟩
  | .hbm, ⟨32, _⟩ => ⟨S_, .f32⟩
  | .hbm, ⟨33, _⟩ => ⟨S800000x4x32, .f32⟩
  | .hbm, ⟨34, _⟩ => ⟨S800000x4x32, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S1, .i32⟩
  | .hbm, ⟨44, _⟩ => ⟨S_, .i32⟩
  | .hbm, ⟨45, _⟩ => ⟨S800000x1, .i32⟩
  | .hbm, ⟨46, _⟩ => ⟨S800000x1, .i1⟩
  | .hbm, ⟨47, _⟩ => ⟨S1x1, .i32⟩
  | .hbm, ⟨48, _⟩ => ⟨S800000x1, .i32⟩
  | .hbm, ⟨49, _⟩ => ⟨S800000x1, .i1⟩
  | .hbm, ⟨50, _⟩ => ⟨S800000x1, .i1⟩
  | .hbm, ⟨51, _⟩ => ⟨S_, .i1⟩
  | .hbm, ⟨52, _⟩ => ⟨S800000, .i1⟩
  | .hbm, ⟨53, _⟩ => ⟨S800000x4x32, .f32⟩
  | .hbm, ⟨54, _⟩ => ⟨S800000x4x32, .i1⟩
  | .hbm, ⟨55, _⟩ => ⟨S_, .f32⟩
  | .hbm, ⟨56, _⟩ => ⟨S800000x4x32, .f32⟩
  | .hbm, ⟨57, _⟩ => ⟨S800000x4x32, .f32⟩
  | .hbm, ⟨58, _⟩ => ⟨S800000x1, .f32⟩
  | .hbm, ⟨59, _⟩ => ⟨S1x4x32, .f32⟩
  | .hbm, ⟨60, _⟩ => ⟨S1x4x32, .f32⟩
  | .hbm, ⟨61, _⟩ => ⟨S800000x4x32, .f32⟩
  | .hbm, ⟨62, _⟩ => ⟨S800000x4, .f32⟩
  | .hbm, ⟨63, _⟩ => ⟨S_, .f32⟩
  | .hbm, ⟨64, _⟩ => ⟨S50000x4x32, .f32⟩
  | .hbm, ⟨65, _⟩ => ⟨S800000x1, .i32⟩
  | .hbm, ⟨66, _⟩ => ⟨S50000x4x32, .f32⟩
  | .hbm, ⟨67, _⟩ => ⟨S_, .f32⟩
  | .hbm, ⟨68, _⟩ => ⟨S50000x4, .f32⟩
  | .hbm, ⟨69, _⟩ => ⟨S800000x1, .i32⟩
  | .hbm, ⟨70, _⟩ => ⟨S50000x4, .f32⟩
  | .hbm, ⟨71, _⟩ => ⟨S50000x4x32, .f32⟩
  | .hbm, ⟨72, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S400x4x32, .f32⟩
  | .local _ .vmem, ⟨6, _⟩ => ⟨S400x4x32, .f32⟩
  | .local _ .vmem, ⟨7, _⟩ => ⟨S400x4x32, .f32⟩
  | .local _ .vmem, ⟨8, _⟩ => ⟨S400x4x32, .f32⟩
  | .local _ .vmem, ⟨9, _⟩ => ⟨S400x1, .f32⟩
  | .local _ .vmem, ⟨10, _⟩ => ⟨S400x1, .f32⟩
  | .local _ .vmem, ⟨11, _⟩ => ⟨S1x4x32, .f32⟩
  | .local _ .vmem, ⟨12, _⟩ => ⟨S1x4x32, .f32⟩
  | .local _ .vmem, ⟨13, _⟩ => ⟨S400x4x32, .f32⟩
  | .local _ .vmem, ⟨14, _⟩ => ⟨S400x4x32, .f32⟩
  | .local _ .vmem, ⟨15, _⟩ => ⟨S400x4, .f32⟩
  | .local _ .vmem, ⟨16, _⟩ => ⟨S400x4, .f32⟩
  | .local _ .vmem, ⟨17, _⟩ => ⟨S400x4x32, .f32⟩
  | .local _ .vmem, ⟨18, _⟩ => ⟨S400x4x32, .f32⟩
  | .local _ .vmem, ⟨19, _⟩ => ⟨S400x4, .f32⟩
  | .local _ .vmem, ⟨20, _⟩ => ⟨S400x4, .f32⟩
  | .local _ .vmem, ⟨21, _⟩ => ⟨S400x4x32, .f32⟩
  | .local _ .vmem, ⟨22, _⟩ => ⟨S400x4x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v7 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12_0 : Ref sig .tc := ⟨.hbm, 61, rfl⟩
abbrev main_v12_1 : Ref sig .tc := ⟨.hbm, 62, rfl⟩
abbrev main_cst : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_cst_0 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2000], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x4x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x4x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x4x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x4 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![125], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S400x4x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S400x4x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S128x128_S128x128_1_0 : S128x128.Transposes [1, 0] S128x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S50000x128_S50000x4x32 : S50000x128.ShapeCasts S50000x4x32
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x4x32_0 : S800000.BroadcastsInDim S800000x4x32 (![0] : Fin 1 → Fin S800000x4x32.rank)
  bcast_S_S800000x4x32 : S_.BroadcastsInDim S800000x4x32 (![] : Fin 0 → Fin S800000x4x32.rank)
  shapeCasts_S800000_S800000x1 : S800000.ShapeCasts S800000x1
  slices_S1x4x64_S1x4x32_0_0_0 : S1x4x64.Slices ![0, 0, 0] S1x4x32
  slices_S1x4x64_S1x4x32_0_0_32 : S1x4x64.Slices ![0, 0, 32] S1x4x32
  inb_S400x4x32_S400x4x32_0_0_0 : ∀ a, (![0, 0, 0] : Fin 3 → Nat) a + S400x4x32.size a ≤ S400x4x32.size a
  h_S400x4x32 : 0 < S400x4x32.numel
  shapeCasts_S400x4x32_S400x4x32 : S400x4x32.ShapeCasts S400x4x32
  inb_S1x4x32_S1x4x32_0_0_0 : ∀ a, (![0, 0, 0] : Fin 3 → Nat) a + S1x4x32.size a ≤ S1x4x32.size a
  h_S1x4x32 : 0 < S1x4x32.numel
  shapeCasts_S1x4x32_S1x4x32 : S1x4x32.ShapeCasts S1x4x32
  broadcasts_S1x4x32_S400x4x32 : S1x4x32.Broadcasts S400x4x32
  reduces_S400x4x32_S400x4 : S400x4x32.Reduces [2] S400x4
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x4 : S400x1.Broadcasts S400x4
  shapeCasts_S400x4_S400x4x1 : S400x4.ShapeCasts S400x4x1
  broadcasts_S400x4x1_S400x4x32 : S400x4x1.Broadcasts S400x4x32
  inb_S400x4_S400x4_0_0 : ∀ a, (![0, 0] : Fin 2 → Nat) a + S400x4.size a ≤ S400x4.size a
  h_S400x4 : 0 < S400x4.numel
  bcast_S_S50000x4x32 : S_.BroadcastsInDim S50000x4x32 (![] : Fin 0 → Fin S50000x4x32.rank)
  bcast_S_S50000x4 : S_.BroadcastsInDim S50000x4 (![] : Fin 0 → Fin S50000x4.rank)
  shapeCasts_S400x4_S400x4 : S400x4.ShapeCasts S400x4
  shapeCasts_S50000x4x32_S50000x128 : S50000x4x32.ShapeCasts S50000x128
  dot_S1000x128_S128x128_S1000x128_1_0_0_1_n_n_wf : DotDims.WF S1000x128 S128x128 S1000x128 [1] [0] [0] [1] [] []
  gather_S50000x4x32_S800000x1_S800000x4x32_12_0_n_n_0_1_1432_wf : GatherDims.WF S50000x4x32 S800000x1 S800000x4x32 [1, 2] [0] [] [0] [] 1 ![1, 4, 32]
  scatter_S50000x4x32_S800000x1_S800000x4x32_12_0_0_1_wf : ScatterDims.WF S50000x4x32 S800000x1 S800000x4x32 [1, 2] [0] [0] 1
  scatter_S50000x4_S800000x1_S800000x4_1_0_0_1_wf : ScatterDims.WF S50000x4 S800000x1 S800000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x4x32.size a ≤ S800000x4x32.size a
  hwx1_0 : ∀ i : grid1.Coords, EltTy.bits .f32 = 32 ∨ (Rect.block (s := S800000x4x32) S400x4x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x4x32.size a ≤ S800000x4x32.size a
  hwx1_1 : ∀ i : grid1.Coords, EltTy.bits .f32 = 32 ∨ (Rect.block (s := S800000x4x32) S400x4x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x1.size a ≤ S800000x1.size a
  hwx1_2 : ∀ i : grid1.Coords, EltTy.bits .f32 = 32 ∨ (Rect.block (s := S800000x1) S400x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4x32.size a ≤ S1x4x32.size a
  hwx1_3 : ∀ i : grid1.Coords, EltTy.bits .f32 = 32 ∨ (Rect.block (s := S1x4x32) S1x4x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4x32.size a ≤ S1x4x32.size a
  hwx1_4 : ∀ i : grid1.Coords, EltTy.bits .f32 = 32 ∨ (Rect.block (s := S1x4x32) S1x4x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x4x32.size a ≤ S800000x4x32.size a
  hwx1_5 : ∀ i : grid1.Coords, EltTy.bits .f32 = 32 ∨ (Rect.block (s := S800000x4x32) S400x4x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x4.size a ≤ S800000x4.size a
  hwx1_6 : ∀ i : grid1.Coords, EltTy.bits .f32 = 32 ∨ (Rect.block (s := S800000x4) S400x4.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x4x32.size a ≤ S50000x4x32.size a
  hwx2_0 : ∀ i : grid2.Coords, EltTy.bits .f32 = 32 ∨ (Rect.block (s := S50000x4x32) S400x4x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x4.size a ≤ S50000x4.size a
  hwx2_1 : ∀ i : grid2.Coords, EltTy.bits .f32 = 32 ∨ (Rect.block (s := S50000x4) S400x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x4x32.size a ≤ S50000x4x32.size a
  hwx2_2 : ∀ i : grid2.Coords, EltTy.bits .f32 = 32 ∨ (Rect.block (s := S50000x4x32) S400x4x32.size (cc2_transform_2 i) (hinb2_2 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S50000x4x32_S800000x1_S800000x4x32_12_0_n_n_0_1_1432 : GatherDims S50000x4x32 S800000x1 S800000x4x32 where
  offsetDims := [1, 2]
  collapsedSliceDims := [0]
  operandBatchingDims := []
  startIndicesBatchingDims := []
  startIndexMap := [0]
  indexVectorDim := 1
  sliceSizes := ![1, 4, 32]
  wf := gather_S50000x4x32_S800000x1_S800000x4x32_12_0_n_n_0_1_1432_wf
def scatter_S50000x4x32_S800000x1_S800000x4x32_12_0_0_1 : ScatterDims S50000x4x32 S800000x1 S800000x4x32 where
  updateWindowDims := [1, 2]
  insertedWindowDims := [0]
  scatterDimsToOperandDims := [0]
  indexVectorDim := 1
  wf := scatter_S50000x4x32_S800000x1_S800000x4x32_12_0_0_1_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S400x4x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S400x4x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x4x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x4x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12_0) S400x4x32.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v12_1) S400x4.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v15) S400x4x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S400x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S400x4x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S1x4x64 : Shape := ⟨3, ![1, 4, 64]⟩
abbrev S50000x4x32 : Shape := ⟨3, ![50000, 4, 32]⟩
abbrev S1x800000 : Shape := ⟨2, ![1, 800000]⟩
abbrev S_ : Shape := ⟨0, ![]⟩
abbrev S800000x1 : Shape := ⟨2, ![800000, 1]⟩
abbrev S800000x4x32 : Shape := ⟨3, ![800000, 4, 32]⟩
abbrev S1x4x32 : Shape := ⟨3, ![1, 4, 32]⟩
abbrev S800000x4 : Shape := ⟨2, ![800000, 4]⟩
abbrev S800000x4x1 : Shape := ⟨3, ![800000, 4, 1]⟩
abbrev S50000x4 : Shape := ⟨2, ![50000, 4]⟩
abbrev S50000x4x1 : Shape := ⟨3, ![50000, 4, 1]⟩

abbrev nBuf : Space → Nat
  | .hbm => 75
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S1x4x64, .f32⟩
  | .hbm, ⟨5, _⟩ => ⟨S128x128, .f32⟩
  | .hbm, ⟨6, _⟩ => ⟨S50000x128, .f32⟩
  | .hbm, ⟨7, _⟩ => ⟨S50000x4x32, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x4x32, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x4x32, .f32⟩
  | .hbm, ⟨30, _⟩ => ⟨S1x4x32, .f32⟩
  | .hbm, ⟨31, _⟩ => ⟨S1x4x32, .f32⟩
  | .hbm, ⟨32, _⟩ => ⟨S800000x4x32, .f32⟩
  | .hbm, ⟨33, _⟩ => ⟨S800000x4x32, .f32⟩
  | .hbm, ⟨34, _⟩ => ⟨S_, .f32⟩
  | .hbm, ⟨35, _⟩ => ⟨S800000x4, .f32⟩
  | .hbm, ⟨36, _⟩ => ⟨S800000x4x32, .f32⟩
  | .hbm, ⟨37, _⟩ => ⟨S800000x4x32, .f32⟩
  | .hbm, ⟨38, _⟩ => ⟨S_, .f32⟩
  | .hbm, ⟨39, _⟩ => ⟨S800000x4, .f32⟩
  | .hbm, ⟨40, _⟩ => ⟨S800000x4, .f32⟩
  | .hbm, ⟨41, _⟩ => ⟨S_, .f32⟩
  | .hbm, ⟨42, _⟩ => ⟨S_, .f32⟩
  | .hbm, ⟨43, _⟩ => ⟨S800000x4, .f32⟩
  | .hbm, ⟨44, _⟩ => ⟨S800000x4, .i1⟩
  | .hbm, ⟨45, _⟩ => ⟨S_, .f32⟩
  | .hbm, ⟨46, _⟩ => ⟨S800000x4, .f32⟩
  | .hbm, ⟨47, _⟩ => ⟨S800000x4, .f32⟩
  | .hbm, ⟨48, _⟩ => ⟨S800000x4, .f32⟩
  | .hbm, ⟨49, _⟩ => ⟨S_, .f32⟩
  | .hbm, ⟨50, _⟩ => ⟨S_, .f32⟩
  | .hbm, ⟨51, _⟩ => ⟨S800000, .f32⟩
  | .hbm, ⟨52, _⟩ => ⟨S800000, .f32⟩
  | .hbm, ⟨53, _⟩ => ⟨S800000x1, .f32⟩
  | .hbm, ⟨54, _⟩ => ⟨S800000x4, .f32⟩
  | .hbm, ⟨55, _⟩ => ⟨S800000x4, .f32⟩
  | .hbm, ⟨56, _⟩ => ⟨S800000x4, .f32⟩
  | .hbm, ⟨57, _⟩ => ⟨S800000x4x1, .f32⟩
  | .hbm, ⟨58, _⟩ => ⟨S800000x4x32, .f32⟩
  | .hbm, ⟨59, _⟩ => ⟨S800000x4x32, .f32⟩
  | .hbm, ⟨60, _⟩ => ⟨S_, .f32⟩
  | .hbm, ⟨61, _⟩ => ⟨S50000x4x32, .f32⟩
  | .hbm, ⟨62, _⟩ => ⟨S800000x1, .i32⟩
  | .hbm, ⟨63, _⟩ => ⟨S50000x4x32, .f32⟩
  | .hbm, ⟨64, _⟩ => ⟨S_, .f32⟩
  | .hbm, ⟨65, _⟩ => ⟨S50000x4, .f32⟩
  | .hbm, ⟨66, _⟩ => ⟨S800000x1, .i32⟩
  | .hbm, ⟨67, _⟩ => ⟨S50000x4, .f32⟩
  | .hbm, ⟨68, _⟩ => ⟨S50000x4x1, .f32⟩
  | .hbm, ⟨69, _⟩ => ⟨S_, .f32⟩
  | .hbm, ⟨70, _⟩ => ⟨S50000x4x1, .f32⟩
  | .hbm, ⟨71, _⟩ => ⟨S50000x4x1, .f32⟩
  | .hbm, ⟨72, _⟩ => ⟨S50000x4x32, .f32⟩
  | .hbm, ⟨73, _⟩ => ⟨S50000x4x32, .f32⟩
  | .hbm, ⟨74, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v30 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]

class Facts₀ : Prop where
  transposes_S128x128_S128x128_1_0 : S128x128.Transposes [1, 0] S128x128
  shapeCasts_S50000x128_S50000x4x32 : S50000x128.ShapeCasts S50000x4x32
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S1x4x64_S1x4x32_0_0_0 : S1x4x64.Slices ![0, 0, 0] S1x4x32
  slices_S1x4x64_S1x4x32_0_0_32 : S1x4x64.Slices ![0, 0, 32] S1x4x32
  bcast_S1x4x32_S800000x4x32_0_1_2 : S1x4x32.BroadcastsInDim S800000x4x32 (![0, 1, 2] : Fin 3 → Fin S800000x4x32.rank)
  reducesTo_S800000x4x32_S800000x4_d2 : S800000x4x32.ReducesTo [2] S800000x4
  h_S_ : 0 < S_.numel
  bcast_S_S800000x4 : S_.BroadcastsInDim S800000x4 (![] : Fin 0 → Fin S800000x4.rank)
  bcast_S800000x1_S800000x4_0_1 : S800000x1.BroadcastsInDim S800000x4 (![0, 1] : Fin 2 → Fin S800000x4.rank)
  bcast_S800000x4_S800000x4x1_0_1 : S800000x4.BroadcastsInDim S800000x4x1 (![0, 1] : Fin 2 → Fin S800000x4x1.rank)
  bcast_S800000x4x1_S800000x4x32_0_1_2 : S800000x4x1.BroadcastsInDim S800000x4x32 (![0, 1, 2] : Fin 3 → Fin S800000x4x32.rank)
  bcast_S_S50000x4x32 : S_.BroadcastsInDim S50000x4x32 (![] : Fin 0 → Fin S50000x4x32.rank)
  bcast_S_S50000x4 : S_.BroadcastsInDim S50000x4 (![] : Fin 0 → Fin S50000x4.rank)
  bcast_S50000x4_S50000x4x1_0_1 : S50000x4.BroadcastsInDim S50000x4x1 (![0, 1] : Fin 2 → Fin S50000x4x1.rank)
  bcast_S_S50000x4x1 : S_.BroadcastsInDim S50000x4x1 (![] : Fin 0 → Fin S50000x4x1.rank)
  bcast_S50000x4x1_S50000x4x32_0_1_2 : S50000x4x1.BroadcastsInDim S50000x4x32 (![0, 1, 2] : Fin 3 → Fin S50000x4x32.rank)
  shapeCasts_S50000x4x32_S50000x128 : S50000x4x32.ShapeCasts S50000x128
  dot_S50000x128_S128x128_S50000x128_1_0_0_1_n_n_wf : DotDims.WF S50000x128 S128x128 S50000x128 [1] [0] [0] [1] [] []
  gather_S50000x4x32_S800000x1_S800000x4x32_12_0_n_n_0_1_1432_wf : GatherDims.WF S50000x4x32 S800000x1 S800000x4x32 [1, 2] [0] [] [0] [] 1 ![1, 4, 32]
  scatter_S50000x4x32_S800000x1_S800000x4x32_12_0_0_1_wf : ScatterDims.WF S50000x4x32 S800000x1 S800000x4x32 [1, 2] [0] [0] 1
  scatter_S50000x4_S800000x1_S800000x4_1_0_0_1_wf : ScatterDims.WF S50000x4 S800000x1 S800000x4 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x4x32_S800000x1_S800000x4x32_12_0_n_n_0_1_1432 : GatherDims S50000x4x32 S800000x1 S800000x4x32 where
  offsetDims := [1, 2]
  collapsedSliceDims := [0]
  operandBatchingDims := []
  startIndicesBatchingDims := []
  startIndexMap := [0]
  indexVectorDim := 1
  sliceSizes := ![1, 4, 32]
  wf := gather_S50000x4x32_S800000x1_S800000x4x32_12_0_n_n_0_1_1432_wf
def scatter_S50000x4x32_S800000x1_S800000x4x32_12_0_0_1 : ScatterDims S50000x4x32 S800000x1 S800000x4x32 where
  updateWindowDims := [1, 2]
  insertedWindowDims := [0]
  scatterDimsToOperandDims := [0]
  indexVectorDim := 1
  wf := scatter_S50000x4x32_S800000x1_S800000x4x32_12_0_0_1_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf

class Facts : Prop extends Facts₀ where

variable [Facts]
-- ==== Proof.Spec.lean ====
import Idealize.ShloMosaic.PureOps.Ideal
import Idealize.ShloMosaic.Lib.ValueIdx

/-!
# One graph-attention layer, index by index

Nodes carry 128 features, read as 4 heads of 32. Every edge `e` has a source row and a target row of the
projected node table; its logit for head `h` is the sum over the 32 features of source·a_src plus the sum of
target·a_dst, passed through the leaky rectifier; its weight is `max(prior, tiny) · exp(logit)`; its message
is that weight times the source row. Weights and messages are summed per target node, and each node's summed
message is divided by its summed weight plus `tiny`.

This file states the three dense stages as functions of whole arrays over the extended reals: the projection
(a matrix product), the per-edge stage (weights and messages) and the per-node normalisation. Each value at
an index depends only on the rows that index names, which the statements below make visible.
-/

noncomputable section

namespace Cert.Gat

open Idealize.ShloMosaic Idealize.ShloMosaic.ValueIdx
open scoped BigOperators

/-- nodes × features -/
abbrev SNK : Shape := ⟨2, ![50000, 128]⟩
/-- features × features -/
abbrev SKK : Shape := ⟨2, ![128, 128]⟩
/-- nodes × heads × head features -/
abbrev SNHD : Shape := ⟨3, ![50000, 4, 32]⟩
/-- nodes × heads -/
abbrev SNH : Shape := ⟨2, ![50000, 4]⟩
/-- edges × heads × head features -/
abbrev SEHD : Shape := ⟨3, ![800000, 4, 32]⟩
/-- edges × heads -/
abbrev SEH : Shape := ⟨2, ![800000, 4]⟩
/-- edges × 1 -/
abbrev SE1 : Shape := ⟨2, ![800000, 1]⟩
/-- one attention vector per head -/
abbrev SA : Shape := ⟨3, ![1, 4, 32]⟩

/-- The small positive number both programs add to a denominator and clip the prior at. -/
abbrev tiny : EReal := Ideal.ofBits .f32 0x322BCC77#32
/-- The slope of the leaky rectifier on the negative side. -/
abbrev slope : EReal := Ideal.ofBits .f32 0x3E4CCCCD#32
/-- The float zero the rectifier compares with. -/
abbrev zeroF : EReal := Ideal.ofBits .f32 0x00000000#32

/-- The leaky rectifier: `z` where `z ≥ 0`, `slope · z` elsewhere. -/
def leaky (z : EReal) : EReal := Scalar.select (Ideal.cmp .oge z zeroF) z (slope * z)

/-- The projection: row `n` of `x` against column `j` of `wt`. -/
def matG (x : FVec Ideal SNK .f32) (wt : FVec Ideal SKK .f32) : FVec Ideal SNK .f32 :=
  fun i => ∑ k : Fin 128, x (ix2 (i 0) k) * wt (ix2 k (i 1))

/-- Edge `e`'s logit for head `h` before the rectifier. -/
def logit (hs hd : FVec Ideal SEHD .f32) (as ad : FVec Ideal SA .f32) (e : Fin 800000) (h : Fin 4) : EReal :=
  (∑ d : Fin 32, hs (ix3 e h d) * as (ix3 (0 : Fin 1) h d)) + (∑ d : Fin 32, hd (ix3 e h d) * ad (ix3 (0 : Fin 1) h d))

/-- Edge `e`'s weight for head `h`. -/
def edgeW (hs hd : FVec Ideal SEHD .f32) (ew : FVec Ideal SE1 .f32) (as ad : FVec Ideal SA .f32) : FVec Ideal SEH .f32 :=
  fun j => max (ew (ix2 (j 0) (0 : Fin 1))) tiny * Ideal.exp (leaky (logit hs hd as ad (j 0) (j 1)))

/-- Edge `e`'s message: its weight times its source row. -/
def edgeMsg (hs hd : FVec Ideal SEHD .f32) (ew : FVec Ideal SE1 .f32) (as ad : FVec Ideal SA .f32) : FVec Ideal SEHD .f32 :=
  fun i => edgeW hs hd ew as ad (ix2 (i 0) (i 1)) * hs i

/-- The normalisation: a node's summed message over its summed weight plus `tiny`. -/
def normG (o : FVec Ideal SNHD .f32) (a : FVec Ideal SNH .f32) : FVec Ideal SNHD .f32 :=
  fun i => Ideal.div (o i) (a (ix2 (i 0) (i 1)) + tiny)

/-- An edge's weight reads only that edge's rows of the two gathered tables. -/
theorem edgeW_congr_row (hs hs' hd hd' : FVec Ideal SEHD .f32) (ew : FVec Ideal SE1 .f32) (as ad : FVec Ideal SA .f32)
    (e : Fin 800000) (h : Fin 4)
    (hS : ∀ d : Fin 32, hs (ix3 e h d) = hs' (ix3 e h d)) (hD : ∀ d : Fin 32, hd (ix3 e h d) = hd' (ix3 e h d)) :
    edgeW hs hd ew as ad (ix2 e h) = edgeW hs' hd' ew as ad (ix2 e h) := by
  unfold edgeW logit
  simp only [hS, hD]

/-- An edge's message reads only that edge's rows of the two gathered tables. -/
theorem edgeMsg_congr_row (hs hs' hd hd' : FVec Ideal SEHD .f32) (ew : FVec Ideal SE1 .f32) (as ad : FVec Ideal SA .f32)
    (e : Fin 800000) (h : Fin 4) (d : Fin 32)
    (hS : ∀ d : Fin 32, hs (ix3 e h d) = hs' (ix3 e h d)) (hD : ∀ d : Fin 32, hd (ix3 e h d) = hd' (ix3 e h d)) :
    edgeMsg hs hd ew as ad (ix3 e h d) = edgeMsg hs' hd' ew as ad (ix3 e h d) := by
  unfold edgeMsg
  rw [show (ix2 ((ix3 e h d : SEHD.Idx) 0) ((ix3 e h d : SEHD.Idx) 1) : SEH.Idx) = ix2 e h from rfl,
    edgeW_congr_row hs hs' hd hd' ew as ad e h hS hD, hS d]

end Cert.Gat

end
-- ==== Proof.Region0.lean ====
import proofs.«428315_j2946347565058_3_alg».proof.Proof.Gen.KernelIdeal.Frame
import proofs.«428315_j2946347565058_3_alg».proof.Proof.Spec
import Idealize.ShloMosaic.Lib.Pipeline.Value
import Idealize.ShloMosaic.Lib.ValueIdx
import Idealize.ShloMosaic.PureOps.Ideal.Laws

noncomputable section

set_option maxRecDepth 16384

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

/-! ## The block's matrix product at an index -/

/-- The left operand's index at output index `j` and contraction position `k`: row `j 0`, -/
theorem lhs_row (j : S1000x128.Idx) (k : dot_S1000x128_S128x128_S1000x128_1_0_0_1_n_n.contr.Idx) :
    (dot_S1000x128_S128x128_S1000x128_1_0_0_1_n_n.lhsIdx j k 0 : ℕ) = j 0 := by
  simp [DotDims.lhsIdx, dot_S1000x128_S128x128_S1000x128_1_0_0_1_n_n]; rfl
/-- column the contracted coordinate; -/
theorem lhs_contr (j : S1000x128.Idx) (k : dot_S1000x128_S128x128_S1000x128_1_0_0_1_n_n.contr.Idx) :
    (dot_S1000x128_S128x128_S1000x128_1_0_0_1_n_n.lhsIdx j k 1 : ℕ) = k ⟨0, by decide⟩ := by
  simp [DotDims.lhsIdx, dot_S1000x128_S128x128_S1000x128_1_0_0_1_n_n]; rfl
/-- the right operand's: row the contracted coordinate, -/
theorem rhs_contr (j : S1000x128.Idx) (k : dot_S1000x128_S128x128_S1000x128_1_0_0_1_n_n.contr.Idx) :
    (dot_S1000x128_S128x128_S1000x128_1_0_0_1_n_n.rhsIdx j k 0 : ℕ) = k ⟨0, by decide⟩ := by
  simp [DotDims.rhsIdx, dot_S1000x128_S128x128_S1000x128_1_0_0_1_n_n]; rfl
/-- column `j 1`. -/
theorem rhs_col (j : S1000x128.Idx) (k : dot_S1000x128_S128x128_S1000x128_1_0_0_1_n_n.contr.Idx) :
    (dot_S1000x128_S128x128_S1000x128_1_0_0_1_n_n.rhsIdx j k 1 : ℕ) = j 1 := by
  simp [DotDims.rhsIdx, dot_S1000x128_S128x128_S1000x128_1_0_0_1_n_n]; rfl

/-- What the body stores, at row `p` and column `q` of the block: the sum over the 128 features of the block's row
    `p` of `x` against column `q` of `Wᵀ` (the narrowing to bf16 is the identity on the ideal values, the cast to the
    same shape is the identity, and the accumulator is the zero splat). -/
theorem pay_apply (x0 : Vec Ideal S1000x128 .f32) (x1 : Vec Ideal S128x128 .f32) (p : Fin 1000) (q : Fin 128) :
    k0_pay1 x0 x1 (ix2 p q) = ∑ k : Fin 128, x0 (ix2 p k) * x1 (ix2 k q) := by
  unfold k0_pay1
  show FloatOps.matmul dot_S1000x128_S128x128_S1000x128_1_0_0_1_n_n none _ _ (constant S1000x128 .f32 0x00000000#32) (ix2 p q) = _
  rw [Ideal.matmul_constant_zero_apply,
    ← Equiv.sum_comp (contrEquiv1 dot_S1000x128_S128x128_S1000x128_1_0_0_1_n_n 128 rfl rfl).symm]
  refine Finset.sum_congr rfl fun k _ => ?_
  have ck := contrEquiv1_symm_val dot_S1000x128_S128x128_S1000x128_1_0_0_1_n_n 128 rfl rfl k
  have hl : dot_S1000x128_S128x128_S1000x128_1_0_0_1_n_n.lhsIdx (ix2 p q)
      ((contrEquiv1 dot_S1000x128_S128x128_S1000x128_1_0_0_1_n_n 128 rfl rfl).symm k) = ix2 p k := by
    funext ax; apply Fin.ext
    match ax with
    | ⟨0, _⟩ => exact lhs_row _ _
    | ⟨1, _⟩ => exact (lhs_contr _ _).trans ck
  have hr : dot_S1000x128_S128x128_S1000x128_1_0_0_1_n_n.rhsIdx (ix2 p q)
      ((contrEquiv1 dot_S1000x128_S128x128_S1000x128_1_0_0_1_n_n 128 rfl rfl).symm k) = ix2 k q := by
    funext ax; apply Fin.ext
    match ax with
    | ⟨0, _⟩ => exact (rhs_contr _ _).trans ck
    | ⟨1, _⟩ => exact rhs_col _ _
  rw [hl, hr, truncf_apply, truncf_apply, shapeCast_self]

-- the TensorCore's buffer contents when the region is entered
variable (V : (c : Dev nD) → (b : Ref sig .tc) → Buf (Elt Ideal) ((c : Thread nD τ).loc b))

/-! ## From the blocks to the array -/

theorem zero_offsets : (![0, 0] : Fin 2 → Nat) = fun _ => 0 := funext fun a => by fin_cases a <;> rfl

/-- The printed index maps, decided over the grid: at point `t` the block of `x` and the block of the output are block
    `t` of the rows and the only block of the columns; `Wᵀ`'s block is the whole array. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT `t` WRITES BACK is block `t` of the matrix product of the two input arrays as the region finds them. -/
theorem flushed_eq (c : Dev nD) (t : Fin cfg0.N) :
    (dat0 (F := Ideal) V c).flushed 2 t
      = ((cfg0.win 2).blk t).view.read (Elt Ideal) (Cert.Gat.matG (V c main_arg0) (V c main_v0)) := by
  show (cfg0.win 2).cut (grid0.coords t) ((dat0 V c).after 2 t) = _
  rw [after0_2]
  unfold out0_2
  rw [View.canon_unit_zero zero_offsets]
  simp only [View.ld_unit_zero (S := S1000x128) zero_offsets, View.ld_unit_zero (S := S128x128) zero_offsets]
  obtain ⟨e0, e1, e2, e3, e4, e5⟩ := idx_facts t
  funext j
  obtain ⟨p, q, rfl⟩ : ∃ (p : Fin 1000) (q : Fin 128), j = ix2 p q := ⟨j 0, j 1, eq_ix2 j⟩
  show k0_pay1 (iblk0 V c 0 t) (iblk0 V c 1 t) (ix2 p q)
    = Cert.Gat.matG (V c main_arg0) (V c main_v0) (((cfg0.win 2).blk t).view.emb (ix2 p q))
  rw [pay_apply]
  unfold Cert.Gat.matG
  refine Finset.sum_congr rfl fun k _ => ?_
  have hx : ((cfg0.win 0).blk t).view.emb (ix2 p k)
      = (ix2 ((((cfg0.win 2).blk t).view.emb (ix2 p q)) 0) k : S50000x128.Idx) := by
    funext a; apply Fin.ext
    match a with
    | ⟨0, _⟩ =>
      show win0_0.index t (0 : Fin 2) * 1000 + 1 * p.val = win0_2.index t (0 : Fin 2) * 1000 + 1 * p.val
      omega
    | ⟨1, _⟩ =>
      show win0_0.index t (1 : Fin 2) * 128 + 1 * k.val = k.val
      omega
  have hw : ((cfg0.win 1).blk t).view.emb (ix2 k q)
      = (ix2 k ((((cfg0.win 2).blk t).view.emb (ix2 p q)) 1) : S128x128.Idx) := by
    funext a; apply Fin.ext
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega
  exact congrArg₂ (fun a b : EReal => a * b) (congrArg (V c main_arg0) hx) (congrArg (V c main_v0) hw)

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v1).slice (win0_2.rect t)).set ↔ _
  rw [View.set_slice_whole, Rect.mem_set_unit]
  exact Iff.rfl

/-- Every index of the array is in the block of the point its row falls in: row `r` is in block `r / 1000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 1000, by show (i 0).val / 1000 < 50; omega⟩, flush0_2 _, ?_⟩
  rw [mem_blk]
  obtain ⟨e0, e1, e2, e3, e4, e5⟩ := idx_facts ⟨(i 0).val / 1000, by show (i 0).val / 1000 < 50; omega⟩
  intro a
  match a with
  | ⟨0, _⟩ =>
    show win0_2.index _ (0 : Fin 2) * 1000 ≤ (i 0).val ∧ (i 0).val < win0_2.index _ (0 : Fin 2) * 1000 + 1000
    rw [e4]; show (i 0).val / 1000 * 1000 ≤ (i 0).val ∧ (i 0).val < (i 0).val / 1000 * 1000 + 1000; omega
  | ⟨1, _⟩ =>
    show win0_2.index _ (1 : Fin 2) * 128 ≤ (i 1).val ∧ (i 1).val < win0_2.index _ (1 : Fin 2) * 128 + 128
    rw [e5]; omega

/-- After the projection's region its output array is the matrix product of the two input arrays as the region
    found them: every block of 1000 rows is written once, from the same 1000 rows of `x` and the whole of `Wᵀ`. -/
theorem final (c : Dev nD) :
    (dat0 (F := Ideal) V c).arrAt 2 cfg0.N = Cert.Gat.matG (V c main_arg0) (V c main_v0) :=
  (dat0 (F := Ideal) V c).arrAt_eq_of_cover 2 (Cert.Gat.matG (V c main_arg0) (V c main_v0))
    (fun t _ => flushed_eq V c t) cover

end Cert.KernelIdeal.Region0

end
-- ==== Proof.Region1.lean ====
import proofs.«428315_j2946347565058_3_alg».proof.Proof.Gen.KernelIdeal.Frame
import proofs.«428315_j2946347565058_3_alg».proof.Proof.Spec
import Idealize.ShloMosaic.Lib.Pipeline.Value
import Idealize.ShloMosaic.Lib.ValueIdx
import Idealize.ShloMosaic.PureOps.Ideal.Laws

noncomputable section

set_option maxRecDepth 16384

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

/-! # Region 1: the per-edge stage

Blocks of 400 edges over 2000 points. The body multiplies each edge's source row by the source attention vector and
its target row by the target attention vector, sums each product over the 32 features, adds the two sums, applies the
leaky rectifier and the exponential, and scales by the prior clipped at `tiny`: the edge's weight. The message is that
weight times the source row. First the two payloads are read at an index; then each block written back is shown to be
the block of the whole-array function, and the blocks cover the arrays.
-/

/-! ## The payloads at an index -/

/-- The identity cast of the source block. -/
theorem pay1_eq (x0 : Vec Ideal S400x4x32 .f32) : k1_pay1 x0 = x0 := by
  unfold k1_pay1; exact shapeCast_self _ _

/-- One attention vector spread over the 400 rows of a block reads its own entry. -/
theorem spread_att (v : FVec Ideal S1x4x32 .f32) (r : Fin 400) (h : Fin 4) (d : Fin 32) :
    broadcastTo S400x4x32 v broadcasts_S1x4x32_S400x4x32 (ix3 r h d) = v (ix3 (0 : Fin 1) h d) :=
  broadcastTo_apply v broadcasts_S1x4x32_S400x4x32 (ix3 r h d) (ix3 (0 : Fin 1) h d)
    (fun a => by match a with | ⟨0, _⟩ => rfl | ⟨1, _⟩ => rfl | ⟨2, _⟩ => rfl)

/-- The prior column spread over the 4 heads reads the row's entry. -/
theorem spread_prior (v : FVec Ideal S400x1 .f32) (r : Fin 400) (h : Fin 4) :
    broadcastTo S400x4 v broadcasts_S400x1_S400x4 (ix2 r h) = v (ix2 r (0 : Fin 1)) :=
  broadcastTo_apply v broadcasts_S400x1_S400x4 (ix2 r h) (ix2 r (0 : Fin 1))
    (fun a => by match a with | ⟨0, _⟩ => rfl | ⟨1, _⟩ => rfl)

/-- A weight per (row, head) spread over the 32 features reads the (row, head) entry. -/
theorem spread_weight (v : FVec Ideal S400x4 .f32) (r : Fin 400) (h : Fin 4) (d : Fin 32) :
    broadcastTo S400x4x32 (shapeCast S400x4x1 v shapeCasts_S400x4_S400x4x1) broadcasts_S400x4x1_S400x4x32 (ix3 r h d) = v (ix2 r h) := by
  refine (broadcastTo_apply _ broadcasts_S400x4x1_S400x4x32 (ix3 r h d) (ix3 r h (0 : Fin 1))
    (fun a => by match a with | ⟨0, _⟩ => rfl | ⟨1, _⟩ => rfl | ⟨2, _⟩ => rfl)).trans ?_
  refine shapeCast_apply v shapeCasts_S400x4_S400x4x1 (ix3 r h (0 : Fin 1)) (ix2 r h) ?_
  rw [Shape.rowMajor_val_two, Shape.rowMajor_val_three]
  show r.val * 4 + h.val = (r.val * 4 + h.val) * 1 + 0
  omega

/-- The sum over the 32 features of a block, read at (row, head). -/
theorem lane_sum (src : FVec Ideal S400x4x32 .f32) (hφ : FKind.Formats .f32)
    (hacc : (0x00000000#32 : BitVec FTy.f32.bits) = 0x00000000#32) (r : Fin 400) (h : Fin 4) :
    multiReduction (F := Ideal) .add [2] S400x4 src 0x00000000#32 reduces_S400x4x32_S400x4 hφ hacc (ix2 r h)
      = ∑ d : Fin 32, src (ix3 r h d) := by
  refine (Ideal.multiReduction_add_single src 0x00000000#32 reduces_S400x4x32_S400x4 hφ hacc (ix2 r h)).trans ?_
  refine Finset.sum_congr rfl fun d _ => congrArg src ?_
  funext a
  match a with
  | ⟨0, _⟩ => rfl
  | ⟨1, _⟩ => rfl
  | ⟨2, _⟩ => rfl

/-- The weights payload at (row, head): the clipped prior times the exponential of the rectified logit. -/
theorem pay2_apply (x0 x1 : Vec Ideal S400x4x32 .f32) (a3 a4 : Vec Ideal S1x4x32 .f32) (p : Vec Ideal S400x1 .f32)
    (r : Fin 400) (h : Fin 4) :
    k1_pay2 x0 x1 a3 a4 p (ix2 r h)
      = max (p (ix2 r (0 : Fin 1))) Cert.Gat.tiny
          * Ideal.exp (Cert.Gat.leaky ((∑ d : Fin 32, x0 (ix3 r h d) * a3 (ix3 (0 : Fin 1) h d))
              + (∑ d : Fin 32, x1 (ix3 r h d) * a4 (ix3 (0 : Fin 1) h d)))) := by
  unfold k1_pay2
  simp only [pay1_eq, shapeCast_self]
  rw [mulf_apply, spread_prior]
  simp only [Idealize.ShloMosaic.exp, select_apply, cmpf_apply, addf_apply, mulf_apply, broadcast_apply, maximumf_apply]
  rw [lane_sum, lane_sum]
  simp only [mulf_apply, spread_att]
  rfl

/-- The messages payload at (row, head, feature): the weight times the source entry. -/
theorem pay3_apply (x0 x1 : Vec Ideal S400x4x32 .f32) (a3 a4 : Vec Ideal S1x4x32 .f32) (p : Vec Ideal S400x1 .f32)
    (r : Fin 400) (h : Fin 4) (d : Fin 32) :
    k1_pay3 x0 x1 a3 a4 p (ix3 r h d) = k1_pay2 x0 x1 a3 a4 p (ix2 r h) * x0 (ix3 r h d) := by
  unfold k1_pay3
  rw [mulf_apply, spread_weight, pay1_eq]

/-- A block's weight is the edge's weight, once the block's rows are the edge's rows. -/
theorem weight_point (hs hd : FVec Ideal Cert.Gat.SEHD .f32) (ew : FVec Ideal Cert.Gat.SE1 .f32) (sa da : FVec Ideal Cert.Gat.SA .f32)
    (x0 x1 : Vec Ideal S400x4x32 .f32) (a3 a4 : Vec Ideal S1x4x32 .f32) (p : Vec Ideal S400x1 .f32)
    (e : Fin 800000) (r : Fin 400) (h : Fin 4)
    (h0 : ∀ d : Fin 32, x0 (ix3 r h d) = hs (ix3 e h d))
    (h1 : ∀ d : Fin 32, x1 (ix3 r h d) = hd (ix3 e h d))
    (h2 : p (ix2 r (0 : Fin 1)) = ew (ix2 e (0 : Fin 1)))
    (h3 : ∀ d : Fin 32, a3 (ix3 (0 : Fin 1) h d) = sa (ix3 (0 : Fin 1) h d))
    (h4 : ∀ d : Fin 32, a4 (ix3 (0 : Fin 1) h d) = da (ix3 (0 : Fin 1) h d)) :
    k1_pay2 x0 x1 a3 a4 p (ix2 r h) = Cert.Gat.edgeW hs hd ew sa da (ix2 e h) := by
  rw [pay2_apply]
  simp only [h0, h1, h2, h3, h4]
  rfl

/-- A block's message is the edge's message, once the block's rows are the edge's rows. -/
theorem msg_point (hs hd : FVec Ideal Cert.Gat.SEHD .f32) (ew : FVec Ideal Cert.Gat.SE1 .f32) (sa da : FVec Ideal Cert.Gat.SA .f32)
    (x0 x1 : Vec Ideal S400x4x32 .f32) (a3 a4 : Vec Ideal S1x4x32 .f32) (p : Vec Ideal S400x1 .f32)
    (e : Fin 800000) (r : Fin 400) (h : Fin 4) (d : Fin 32)
    (h0 : ∀ d : Fin 32, x0 (ix3 r h d) = hs (ix3 e h d))
    (h1 : ∀ d : Fin 32, x1 (ix3 r h d) = hd (ix3 e h d))
    (h2 : p (ix2 r (0 : Fin 1)) = ew (ix2 e (0 : Fin 1)))
    (h3 : ∀ d : Fin 32, a3 (ix3 (0 : Fin 1) h d) = sa (ix3 (0 : Fin 1) h d))
    (h4 : ∀ d : Fin 32, a4 (ix3 (0 : Fin 1) h d) = da (ix3 (0 : Fin 1) h d)) :
    k1_pay3 x0 x1 a3 a4 p (ix3 r h d) = Cert.Gat.edgeMsg hs hd ew sa da (ix3 e h d) := by
  rw [pay3_apply, weight_point hs hd ew sa da x0 x1 a3 a4 p e r h h0 h1 h2 h3 h4, h0 d]
  rfl

/-! ## From the blocks to the arrays -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the 2000 points: the per-edge windows sit at block `t` of their first axis,
    the two attention vectors at the origin. -/
theorem index_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 3) = 0 ∧ win1_4.index t (1 : Fin 3) = 0 ∧ win1_4.index t (2 : Fin 3) = 0
    ∧ win1_5.index t (0 : Fin 3) = t.val ∧ win1_5.index t (1 : Fin 3) = 0 ∧ win1_5.index t (2 : Fin 3) = 0
    ∧ win1_6.index t (0 : Fin 2) = t.val ∧ win1_6.index t (1 : Fin 2) = 0 :=
  (by decide +kernel : ∀ t : Fin grid1.N, _)

-- the TensorCore's buffer contents when the region is entered
variable (V : (c : Dev nD) → (b : Ref sig .tc) → Buf (Elt Ideal) ((c : Thread nD τ).loc b))

/-- The edge a block's row is: 400 edges per point. -/
def edgeOf (t : Fin cfg1.N) (r : Fin 400) : Fin 800000 :=
  ⟨t.val * 400 + r.val, by have ht : t.val < 2000 := t.isLt; have := r.isLt; omega⟩

/-- Row `r` of the source block at point `t` is row `edgeOf t r` of the source table. -/
theorem blk0_row (c : Dev nD) (t : Fin cfg1.N) (r : Fin 400) (h : Fin 4) (d : Fin 32) :
    iblk1 (F := Ideal) V c 0 t (ix3 r h d) = V c main_v7 (ix3 (edgeOf t r) h d) := by
  obtain ⟨e0, e1, e2, -⟩ := index_facts t
  show V c main_v7 (((cfg1.win 0).blk t).view.emb (ix3 r h d)) = V c main_v7 (ix3 (edgeOf t r) h d)
  refine congrArg (V c main_v7) (funext fun a => Fin.ext ?_)
  match a with
  | ⟨0, _⟩ => show win1_0.index t (0 : Fin 3) * 400 + 1 * r.val = t.val * 400 + r.val; rw [e0]; omega
  | ⟨1, _⟩ => show win1_0.index t (1 : Fin 3) * 4 + 1 * h.val = h.val; rw [e1]; omega
  | ⟨2, _⟩ => show win1_0.index t (2 : Fin 3) * 32 + 1 * d.val = d.val; rw [e2]; omega

/-- Row `r` of the target block at point `t` is row `edgeOf t r` of the target table. -/
theorem blk1_row (c : Dev nD) (t : Fin cfg1.N) (r : Fin 400) (h : Fin 4) (d : Fin 32) :
    iblk1 (F := Ideal) V c 1 t (ix3 r h d) = V c main_v8 (ix3 (edgeOf t r) h d) := by
  obtain ⟨-, -, -, e0, e1, e2, -⟩ := index_facts t
  show V c main_v8 (((cfg1.win 1).blk t).view.emb (ix3 r h d)) = V c main_v8 (ix3 (edgeOf t r) h d)
  refine congrArg (V c main_v8) (funext fun a => Fin.ext ?_)
  match a with
  | ⟨0, _⟩ => show win1_1.index t (0 : Fin 3) * 400 + 1 * r.val = t.val * 400 + r.val; rw [e0]; omega
  | ⟨1, _⟩ => show win1_1.index t (1 : Fin 3) * 4 + 1 * h.val = h.val; rw [e1]; omega
  | ⟨2, _⟩ => show win1_1.index t (2 : Fin 3) * 32 + 1 * d.val = d.val; rw [e2]; omega

/-- Row `r` of the prior block at point `t` is row `edgeOf t r` of the prior column. -/
theorem blk2_row (c : Dev nD) (t : Fin cfg1.N) (r : Fin 400) :
    iblk1 (F := Ideal) V c 2 t (ix2 r (0 : Fin 1)) = V c main_v9 (ix2 (edgeOf t r) (0 : Fin 1)) := by
  obtain ⟨-, -, -, -, -, -, e0, e1, -⟩ := index_facts t
  show V c main_v9 (((cfg1.win 2).blk t).view.emb (ix2 r (0 : Fin 1))) = V c main_v9 (ix2 (edgeOf t r) (0 : Fin 1))
  refine congrArg (V c main_v9) (funext fun a => Fin.ext ?_)
  match a with
  | ⟨0, _⟩ => show win1_2.index t (0 : Fin 2) * 400 + 1 * r.val = t.val * 400 + r.val; rw [e0]; omega
  | ⟨1, _⟩ => show win1_2.index t (1 : Fin 2) * 1 + 1 * 0 = 0; rw [e1]

/-- The source attention vector's block is the whole vector at every point. -/
theorem blk3_row (c : Dev nD) (t : Fin cfg1.N) (h : Fin 4) (d : Fin 32) :
    iblk1 (F := Ideal) V c 3 t (ix3 (0 : Fin 1) h d) = V c main_v10 (ix3 (0 : Fin 1) h d) := by
  obtain ⟨-, -, -, -, -, -, -, -, e0, e1, e2, -⟩ := index_facts t
  show V c main_v10 (((cfg1.win 3).blk t).view.emb (ix3 (0 : Fin 1) h d)) = V c main_v10 (ix3 (0 : Fin 1) h d)
  refine congrArg (V c main_v10) (funext fun a => Fin.ext ?_)
  match a with
  | ⟨0, _⟩ => show win1_3.index t (0 : Fin 3) * 1 + 1 * 0 = 0; rw [e0]
  | ⟨1, _⟩ => show win1_3.index t (1 : Fin 3) * 4 + 1 * h.val = h.val; rw [e1]; omega
  | ⟨2, _⟩ => show win1_3.index t (2 : Fin 3) * 32 + 1 * d.val = d.val; rw [e2]; omega

/-- The target attention vector's block is the whole vector at every point. -/
theorem blk4_row (c : Dev nD) (t : Fin cfg1.N) (h : Fin 4) (d : Fin 32) :
    iblk1 (F := Ideal) V c 4 t (ix3 (0 : Fin 1) h d) = V c main_v11 (ix3 (0 : Fin 1) h d) := by
  obtain ⟨-, -, -, -, -, -, -, -, -, -, -, e0, e1, e2, -⟩ := index_facts t
  show V c main_v11 (((cfg1.win 4).blk t).view.emb (ix3 (0 : Fin 1) h d)) = V c main_v11 (ix3 (0 : Fin 1) h d)
  refine congrArg (V c main_v11) (funext fun a => Fin.ext ?_)
  match a with
  | ⟨0, _⟩ => show win1_4.index t (0 : Fin 3) * 1 + 1 * 0 = 0; rw [e0]
  | ⟨1, _⟩ => show win1_4.index t (1 : Fin 3) * 4 + 1 * h.val = h.val; rw [e1]; omega
  | ⟨2, _⟩ => show win1_4.index t (2 : Fin 3) * 32 + 1 * d.val = d.val; rw [e2]; omega

/-- Entry (r, h, d) of the messages block at point `t` sits at (edgeOf t r, h, d) of the messages array. -/
theorem blk5_emb (t : Fin cfg1.N) (r : Fin 400) (h : Fin 4) (d : Fin 32) :
    ((cfg1.win 5).blk t).view.emb (ix3 r h d) = (ix3 (edgeOf t r) h d : S800000x4x32.Idx) := by
  obtain ⟨-, -, -, -, -, -, -, -, -, -, -, -, -, -, e0, e1, e2, -⟩ := index_facts t
  refine funext fun a => Fin.ext ?_
  match a with
  | ⟨0, _⟩ => show win1_5.index t (0 : Fin 3) * 400 + 1 * r.val = t.val * 400 + r.val; rw [e0]; omega
  | ⟨1, _⟩ => show win1_5.index t (1 : Fin 3) * 4 + 1 * h.val = h.val; rw [e1]; omega
  | ⟨2, _⟩ => show win1_5.index t (2 : Fin 3) * 32 + 1 * d.val = d.val; rw [e2]; omega

/-- Entry (r, h) of the weights block at point `t` sits at (edgeOf t r, h) of the weights array. -/
theorem blk6_emb (t : Fin cfg1.N) (r : Fin 400) (h : Fin 4) :
    ((cfg1.win 6).blk t).view.emb (ix2 r h) = (ix2 (edgeOf t r) h : S800000x4.Idx) := by
  obtain ⟨-, -, -, -, -, -, -, -, -, -, -, -, -, -, -, -, -, e0, e1⟩ := index_facts t
  refine funext fun a => Fin.ext ?_
  match a with
  | ⟨0, _⟩ => show win1_6.index t (0 : Fin 2) * 400 + 1 * r.val = t.val * 400 + r.val; rw [e0]; omega
  | ⟨1, _⟩ => show win1_6.index t (1 : Fin 2) * 4 + 1 * h.val = h.val; rw [e1]; omega

/-- WHAT POINT `t` WRITES BACK to the messages array is block `t` of the edge messages. -/
theorem flushed_msg (c : Dev nD) (t : Fin cfg1.N) :
    (dat1 (F := Ideal) V c).flushed 5 t
      = ((cfg1.win 5).blk t).view.read (Elt Ideal)
          (Cert.Gat.edgeMsg (V c main_v7) (V c main_v8) (V c main_v9) (V c main_v10) (V c main_v11)) := by
  show (cfg1.win 5).cut (grid1.coords t) ((dat1 (F := Ideal) V c).after 5 t) = _
  rw [after1_5]
  unfold out1_5
  rw [View.canon_unit_zero zeros3]
  simp only [View.ld_unit_zero (S := S400x4x32) zeros3, View.ld_unit_zero (S := S1x4x32) zeros3, View.ld_unit_zero (S := S400x1) zeros2]
  funext j
  obtain ⟨r, h, d, rfl⟩ : ∃ (r : Fin 400) (h : Fin 4) (d : Fin 32), j = ix3 r h d := ⟨j 0, j 1, j 2, eq_ix3 j⟩
  refine (msg_point (V c main_v7) (V c main_v8) (V c main_v9) (V c main_v10) (V c main_v11) _ _ _ _ _ (edgeOf t r) r h d
    (fun d => blk0_row V c t r h d) (fun d => blk1_row V c t r h d) (blk2_row V c t r)
    (fun d => blk3_row V c t h d) (fun d => blk4_row V c t h d)).trans ?_
  show _ = Cert.Gat.edgeMsg (V c main_v7) (V c main_v8) (V c main_v9) (V c main_v10) (V c main_v11) (((cfg1.win 5).blk t).view.emb (ix3 r h d))
  rw [blk5_emb]

/-- WHAT POINT `t` WRITES BACK to the weights array is block `t` of the edge weights. -/
theorem flushed_w (c : Dev nD) (t : Fin cfg1.N) :
    (dat1 (F := Ideal) V c).flushed 6 t
      = ((cfg1.win 6).blk t).view.read (Elt Ideal)
          (Cert.Gat.edgeW (V c main_v7) (V c main_v8) (V c main_v9) (V c main_v10) (V c main_v11)) := by
  show (cfg1.win 6).cut (grid1.coords t) ((dat1 (F := Ideal) V c).after 6 t) = _
  rw [after1_6]
  unfold out1_6
  rw [View.canon_unit_zero zeros2]
  simp only [View.ld_unit_zero (S := S400x4x32) zeros3, View.ld_unit_zero (S := S1x4x32) zeros3, View.ld_unit_zero (S := S400x1) zeros2]
  funext j
  obtain ⟨r, h, rfl⟩ : ∃ (r : Fin 400) (h : Fin 4), j = ix2 r h := ⟨j 0, j 1, eq_ix2 j⟩
  refine (weight_point (V c main_v7) (V c main_v8) (V c main_v9) (V c main_v10) (V c main_v11) _ _ _ _ _ (edgeOf t r) r h
    (fun d => blk0_row V c t r h d) (fun d => blk1_row V c t r h d) (blk2_row V c t r)
    (fun d => blk3_row V c t h d) (fun d => blk4_row V c t h d)).trans ?_
  show _ = Cert.Gat.edgeW (V c main_v7) (V c main_v8) (V c main_v9) (V c main_v10) (V c main_v11) (((cfg1.win 6).blk t).view.emb (ix2 r h))
  rw [blk6_emb]

/-- An index of the messages array is in point `t`'s block iff each coordinate is in the block's range on its axis. -/
theorem mem_blk_msg (t : Fin cfg1.N) (i : S800000x4x32.Idx) :
    i ∈ ((cfg1.win 5).blk t).view.set ↔ ∀ a : Fin 3, win1_5.index t a * S400x4x32.size a ≤ (i a).val ∧ (i a).val < win1_5.index t a * S400x4x32.size a + S400x4x32.size a := by
  show i ∈ ((View.whole main_v12_0).slice (win1_5.rect t)).set ↔ _
  rw [View.set_slice_whole, Rect.mem_set_unit]
  exact Iff.rfl

/-- The same for the weights array. -/
theorem mem_blk_w (t : Fin cfg1.N) (i : S800000x4.Idx) :
    i ∈ ((cfg1.win 6).blk t).view.set ↔ ∀ a : Fin 2, win1_6.index t a * S400x4.size a ≤ (i a).val ∧ (i a).val < win1_6.index t a * S400x4.size a + S400x4.size a := by
  show i ∈ ((View.whole main_v12_1).slice (win1_6.rect t)).set ↔ _
  rw [View.set_slice_whole, Rect.mem_set_unit]
  exact Iff.rfl

/-- Edge `e` is in the block of point `e / 400`: the messages' blocks cover their array. -/
theorem cover_msg (i : S800000x4x32.Idx) :
    ∃ t : Fin cfg1.N, (cfg1.win 5).flush t = true ∧ i ∈ ((cfg1.win 5).blk t).view.set := by
  have hi0 : (i 0).val < 800000 := (i 0).isLt
  have hi1 : (i 1).val < 4 := (i 1).isLt
  have hi2 : (i 2).val < 32 := (i 2).isLt
  let t : Fin cfg1.N := ⟨(i 0).val / 400, by show (i 0).val / 400 < 2000; omega⟩
  have ht : t.val = (i 0).val / 400 := rfl
  obtain ⟨-, -, -, -, -, -, -, -, -, -, -, -, -, -, e0, e1, e2, -⟩ := index_facts t
  refine ⟨t, flush1_5 t, ?_⟩
  rw [mem_blk_msg]
  intro a
  match a with
  | ⟨0, _⟩ => show win1_5.index t (0 : Fin 3) * 400 ≤ (i 0).val ∧ (i 0).val < win1_5.index t (0 : Fin 3) * 400 + 400; rw [e0, ht]; omega
  | ⟨1, _⟩ => show win1_5.index t (1 : Fin 3) * 4 ≤ (i 1).val ∧ (i 1).val < win1_5.index t (1 : Fin 3) * 4 + 4; rw [e1]; omega
  | ⟨2, _⟩ => show win1_5.index t (2 : Fin 3) * 32 ≤ (i 2).val ∧ (i 2).val < win1_5.index t (2 : Fin 3) * 32 + 32; rw [e2]; omega

/-- The weights' blocks cover their array likewise. -/
theorem cover_w (i : S800000x4.Idx) :
    ∃ t : Fin cfg1.N, (cfg1.win 6).flush t = true ∧ i ∈ ((cfg1.win 6).blk t).view.set := by
  have hi0 : (i 0).val < 800000 := (i 0).isLt
  have hi1 : (i 1).val < 4 := (i 1).isLt
  let t : Fin cfg1.N := ⟨(i 0).val / 400, by show (i 0).val / 400 < 2000; omega⟩
  have ht : t.val = (i 0).val / 400 := rfl
  obtain ⟨-, -, -, -, -, -, -, -, -, -, -, -, -, -, -, -, -, e0, e1⟩ := index_facts t
  refine ⟨t, flush1_6 t, ?_⟩
  rw [mem_blk_w]
  intro a
  match a with
  | ⟨0, _⟩ => show win1_6.index t (0 : Fin 2) * 400 ≤ (i 0).val ∧ (i 0).val < win1_6.index t (0 : Fin 2) * 400 + 400; rw [e0, ht]; omega
  | ⟨1, _⟩ => show win1_6.index t (1 : Fin 2) * 4 ≤ (i 1).val ∧ (i 1).val < win1_6.index t (1 : Fin 2) * 4 + 4; rw [e1]; omega

/-- After the per-edge region its first output array holds the messages. -/
theorem final_msg (c : Dev nD) :
    (dat1 (F := Ideal) V c).arrAt 5 cfg1.N
      = Cert.Gat.edgeMsg (V c main_v7) (V c main_v8) (V c main_v9) (V c main_v10) (V c main_v11) :=
  (dat1 (F := Ideal) V c).arrAt_eq_of_cover 5
    (Cert.Gat.edgeMsg (V c main_v7) (V c main_v8) (V c main_v9) (V c main_v10) (V c main_v11))
    (fun t _ => flushed_msg V c t) cover_msg

/-- After the per-edge region its second output array holds the edge weights. -/
theorem final_w (c : Dev nD) :
    (dat1 (F := Ideal) V c).arrAt 6 cfg1.N
      = Cert.Gat.edgeW (V c main_v7) (V c main_v8) (V c main_v9) (V c main_v10) (V c main_v11) :=
  (dat1 (F := Ideal) V c).arrAt_eq_of_cover 6
    (Cert.Gat.edgeW (V c main_v7) (V c main_v8) (V c main_v9) (V c main_v10) (V c main_v11))
    (fun t _ => flushed_w V c t) cover_w

end Cert.KernelIdeal.Region1

end
-- ==== Proof.Region2.lean ====
import proofs.«428315_j2946347565058_3_alg».proof.Proof.Gen.KernelIdeal.Frame
import proofs.«428315_j2946347565058_3_alg».proof.Proof.Spec
import Idealize.ShloMosaic.Lib.Pipeline.Value
import Idealize.ShloMosaic.Lib.ValueIdx
import Idealize.ShloMosaic.PureOps.Ideal.Laws

noncomputable section

set_option maxRecDepth 16384

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-- The offsets of the body's whole-block accesses are zero on every axis. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The body's payload at an index: the message over the weight plus `tiny`. -/
theorem pay_apply (x0 : Vec Ideal S400x4x32 .f32) (x1 : Vec Ideal S400x4 .f32) (r : Fin 400) (h : Fin 4) (d : Fin 32) :
    k2_pay1 (F := Ideal) x0 x1 (ix3 r h d) = Ideal.div (x0 (ix3 r h d)) (x1 (ix2 r h) + Cert.Gat.tiny) := by
  unfold k2_pay1
  simp only [shapeCast_self]
  rw [divf_apply]
  congr 1
  refine (broadcastTo_apply _ broadcasts_S400x4x1_S400x4x32 (ix3 r h d) (ix3 r h (0 : Fin 1)) (fun a => ?_)).trans ?_
  · match a with
    | ⟨0, _⟩ => rfl
    | ⟨1, _⟩ => rfl
    | ⟨2, _⟩ => rfl
  rw [addf_apply, broadcast_apply]
  congr 1
  exact shapeCast_apply x1 shapeCasts_S400x4_S400x4x1 (ix3 r h (0 : Fin 1)) (ix2 r h) (by
    rw [Shape.rowMajor_val_two, Shape.rowMajor_val_three]
    show r.val * 4 + h.val = (r.val * 4 + h.val) * 1 + 0
    omega)

/-- At point `t` each window's block index is `t` on the node axis and `0` on the others: block `t` of each array. -/
theorem idx_facts : ∀ t : Fin cfg2.N, win2_0.index t (0 : Fin 3) = t.val ∧ win2_0.index t (1 : Fin 3) = 0 ∧ win2_0.index t (2 : Fin 3) = 0
    ∧ win2_1.index t (0 : Fin 2) = t.val ∧ win2_1.index t (1 : Fin 2) = 0
    ∧ win2_2.index t (0 : Fin 3) = t.val ∧ win2_2.index t (1 : Fin 3) = 0 ∧ win2_2.index t (2 : Fin 3) = 0 :=
  (by decide +kernel : ∀ t : Fin grid2.N, _)

/-- The quotient of the three windows' blocks at point `t`, read at a block index, is the normalised array at
    that index of the output's block: the three blocks sit at the same rows. -/
theorem norm_at (o : FVec Ideal Cert.Gat.SNHD .f32) (a : FVec Ideal Cert.Gat.SNH .f32)
    (t : Fin cfg2.N) (r : Fin 400) (h : Fin 4) (d : Fin 32) :
    Ideal.div (o (((cfg2.win 0).blk t).view.emb (ix3 r h d))) (a (((cfg2.win 1).blk t).view.emb (ix2 r h)) + Cert.Gat.tiny)
      = Cert.Gat.normG o a (((cfg2.win 2).blk t).view.emb (ix3 r h d)) := by
  obtain ⟨e0, e1, e2, e3, e4, e5, e6, e7⟩ := idx_facts t
  have hr : r.val < 400 := r.isLt
  have hh : h.val < 4 := h.isLt
  have hd : d.val < 32 := d.isLt
  have h0 : ((cfg2.win 0).blk t).view.emb (ix3 r h d) = ((cfg2.win 2).blk t).view.emb (ix3 r h d) := by
    funext a; apply Fin.ext
    match a with
    | ⟨0, _⟩ => show win2_0.index t (0 : Fin 3) * 400 + 1 * r.val = win2_2.index t (0 : Fin 3) * 400 + 1 * r.val; omega
    | ⟨1, _⟩ => show win2_0.index t (1 : Fin 3) * 4 + 1 * h.val = win2_2.index t (1 : Fin 3) * 4 + 1 * h.val; omega
    | ⟨2, _⟩ => show win2_0.index t (2 : Fin 3) * 32 + 1 * d.val = win2_2.index t (2 : Fin 3) * 32 + 1 * d.val; omega
  have h1 : (((cfg2.win 1).blk t).view.emb (ix2 r h) : Cert.Gat.SNH.Idx)
      = ix2 (n0 := 50000) (n1 := 4) ((((cfg2.win 2).blk t).view.emb (ix3 r h d)) 0) ((((cfg2.win 2).blk t).view.emb (ix3 r h d)) 1) := by
    funext a; apply Fin.ext
    match a with
    | ⟨0, _⟩ => show win2_1.index t (0 : Fin 2) * 400 + 1 * r.val = win2_2.index t (0 : Fin 3) * 400 + 1 * r.val; omega
    | ⟨1, _⟩ => show win2_1.index t (1 : Fin 2) * 4 + 1 * h.val = win2_2.index t (1 : Fin 3) * 4 + 1 * h.val; omega
  unfold Cert.Gat.normG
  exact congrArg₂ Ideal.div (congrArg o h0) (congrArg (fun z => a z + Cert.Gat.tiny) h1)

theorem flushed_at (c : Dev nD) (t : Fin cfg2.N) (r : Fin 400) (h : Fin 4) (d : Fin 32) :
    k2_pay1 (F := Ideal) (iblk2 V c 0 t) (iblk2 V c 1 t) (ix3 r h d)
      = Cert.Gat.normG (V c main_v15) (V c main_v18) (((cfg2.win 2).blk t).view.emb (ix3 r h d)) := by
  rw [pay_apply]
  exact norm_at (V c main_v15) (V c main_v18) t r h d

/-- What point `t` writes back is block `t` of the normalised array. -/
theorem flushed_eq (c : Dev nD) (t : Fin cfg2.N) :
    (dat2 (F := Ideal) V c).flushed 2 t = ((cfg2.win 2).blk t).view.read (Elt Ideal) (Cert.Gat.normG (V c main_v15) (V c main_v18)) := by
  show (cfg2.win 2).cut (grid2.coords t) ((dat2 V c).after 2 t) = _
  rw [after2_2]
  unfold out2_2
  rw [View.canon_unit_zero hz3]
  simp only [View.ld_unit_zero (S := S400x4x32) hz3, View.ld_unit_zero (S := S400x4) hz2]
  funext j
  have hj : j = ix3 (n0 := 400) (n1 := 4) (n2 := 32) (j 0) (j 1) (j 2) := eq_ix3 (n0 := 400) (n1 := 4) (n2 := 32) j
  rw [hj]
  exact flushed_at V c t (j 0) (j 1) (j 2)

/-- An index of the array is in point `t`'s block iff each coordinate is in the block's range on its axis. -/
theorem mem_blk (t : Fin cfg2.N) (i : S50000x4x32.Idx) :
    i ∈ ((cfg2.win 2).blk t).view.set ↔ ∀ a : Fin 3, win2_2.index t a * S400x4x32.size a ≤ (i a).val ∧ (i a).val < win2_2.index t a * S400x4x32.size a + S400x4x32.size a := by
  show i ∈ ((View.whole main_v19).slice (win2_2.rect t)).set ↔ _
  rw [View.set_slice_whole, Rect.mem_set_unit]
  exact Iff.rfl

/-- Node `n`'s indices lie in the block of point `n / 400`. -/
theorem cover (i : S50000x4x32.Idx) :
    ∃ t : Fin cfg2.N, (cfg2.win 2).flush t = true ∧ i ∈ ((cfg2.win 2).blk t).view.set := by
  have hi0 : (i 0).val < 50000 := (i 0).isLt
  have hi1 : (i 1).val < 4 := (i 1).isLt
  have hi2 : (i 2).val < 32 := (i 2).isLt
  have hN : (i 0).val / 400 < cfg2.N := by
    show (i 0).val / 400 < 125
    omega
  refine ⟨⟨(i 0).val / 400, hN⟩, flush2_2 _, ?_⟩
  rw [mem_blk]
  obtain ⟨e0, e1, e2, e3, e4, e5, e6, e7⟩ := idx_facts ⟨(i 0).val / 400, hN⟩
  have e5' : win2_2.index ⟨(i 0).val / 400, hN⟩ (0 : Fin 3) = (i 0).val / 400 := e5
  intro a
  match a with
  | ⟨0, _⟩ => show win2_2.index ⟨(i 0).val / 400, hN⟩ (0 : Fin 3) * 400 ≤ (i 0).val ∧ (i 0).val < win2_2.index ⟨(i 0).val / 400, hN⟩ (0 : Fin 3) * 400 + 400; omega
  | ⟨1, _⟩ => show win2_2.index ⟨(i 0).val / 400, hN⟩ (1 : Fin 3) * 4 ≤ (i 1).val ∧ (i 1).val < win2_2.index ⟨(i 0).val / 400, hN⟩ (1 : Fin 3) * 4 + 4; omega
  | ⟨2, _⟩ => show win2_2.index ⟨(i 0).val / 400, hN⟩ (2 : Fin 3) * 32 ≤ (i 2).val ∧ (i 2).val < win2_2.index ⟨(i 0).val / 400, hN⟩ (2 : Fin 3) * 32 + 32; omega

/-- After the normalisation's region its output array is the summed messages over the summed weights plus `tiny`. -/
theorem final (c : Dev nD) :
    (dat2 (F := Ideal) V c).arrAt 2 cfg2.N = Cert.Gat.normG (V c main_v15) (V c main_v18) :=
  (dat2 (F := Ideal) V c).arrAt_eq_of_cover 2 _ (fun t _ => flushed_eq V c t) cover

end Cert.KernelIdeal.Region2

end
-- ==== Proof.KerTerm.lean ====
import proofs.«428315_j2946347565058_3_alg».proof.Proof.Gen.KernelIdeal
import proofs.«428315_j2946347565058_3_alg».proof.Proof.Spec

/-!
# The kernel program's result as one term

The kernel program computes the same layer with three dense stages run block by block (the projection, the
per-edge stage, the normalisation) and host operations between them. Its result is written here with each
dense stage at its whole-array function (`Cert.Gat.matG`, `Cert.Gat.edgeW`, `Cert.Gat.edgeMsg`,
`Cert.Gat.normG`) and the host operations as they are. The row lookup of this program masks a row number that
is out of range after the wrap: such a row reads as a fill value instead of a clamped row.
-/

noncomputable section

namespace Cert.KernelIdeal

open Idealize.ShloMosaic Facts₀ Facts

/-- `x · Wᵀ`, its 128 columns read as 4 heads of 32. -/
def kProj (x : FVec Ideal S50000x128 .f32) (W : FVec Ideal S128x128 .f32) : FVec Ideal S50000x4x32 .f32 :=
  shapeCast S50000x4x32 (Cert.Gat.matG x (transpose S128x128 [1, 0] W transposes_S128x128_S128x128_1_0))
    shapeCasts_S50000x128_S50000x4x32

/-- The source row numbers: row 0 of the edge list. -/
def kRow0 (ei : IVec S2x800000 32) : IVec S800000 32 :=
  shapeCast S800000 (extractStridedSlice S1x800000 ![0, 0] ei slices_S2x800000_S1x800000_0_0) shapeCasts_S1x800000_S800000

/-- The target row numbers: row 1 of the edge list. -/
def kRow1 (ei : IVec S2x800000 32) : IVec S800000 32 :=
  shapeCast S800000 (extractStridedSlice S1x800000 ![1, 0] ei slices_S2x800000_S1x800000_1_0) shapeCasts_S1x800000_S800000

/-- A negative row number counts from the end: `i + 50000` where `i < 0`, as a column. -/
def kWrap (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- Which wrapped row numbers are inside the table: `0 ≤ w ≤ 49999`. -/
def kInRange (i : IVec S800000 32) : IVec S800000 1 :=
  Host.reduce IntOp.andi
    (andi (cmpi .sge (kWrap i) (broadcastInDim S800000x1 ![] bcast_S_S800000x1 (constantI S_ 32 0#32)))
      (cmpi .sle (kWrap i) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The plain row gather at the wrapped row numbers (a row number outside the table reads the nearest row). -/
def kGather (h : FVec Ideal S50000x4x32 .f32) (i : IVec S800000 32) : FVec Ideal S800000x4x32 .f32 :=
  Host.gather gather_S50000x4x32_S800000x1_S800000x4x32_12_0_n_n_0_1_1432 h (kWrap i)

/-- This program's row lookup: the gathered row where the wrapped row number is inside the table, the fill
    value elsewhere. -/
def kTake (h : FVec Ideal S50000x4x32 .f32) (i : IVec S800000 32) : FVec Ideal S800000x4x32 .f32 :=
  select (broadcastInDim S800000x4x32 ![0] bcast_S800000_S800000x4x32_0 (kInRange i)) (kGather h i)
    (broadcastInDim S800000x4x32 ![] bcast_S_S800000x4x32 (constant S_ .f32 0x7FC00000#32))

/-- The prior as a column. -/
def kPriorCol (ew : FVec Ideal S800000 .f32) : FVec Ideal S800000x1 .f32 :=
  shapeCast S800000x1 ew shapeCasts_S800000_S800000x1

/-- The attention vector applied to source rows. -/
def kAsrc (att : FVec Ideal S1x4x64 .f32) : FVec Ideal S1x4x32 .f32 :=
  extractStridedSlice S1x4x32 ![0, 0, 0] att slices_S1x4x64_S1x4x32_0_0_0

/-- The attention vector applied to target rows. -/
def kAdst (att : FVec Ideal S1x4x64 .f32) : FVec Ideal S1x4x32 .f32 :=
  extractStridedSlice S1x4x32 ![0, 0, 32] att slices_S1x4x64_S1x4x32_0_0_32

/-- The messages summed per target node. -/
def kSumMsg (dst : IVec S800000 32) (msg : FVec Ideal S800000x4x32 .f32) : FVec Ideal S50000x4x32 .f32 :=
  Host.scatterAdd scatter_S50000x4x32_S800000x1_S800000x4x32_12_0_0_1
    (broadcastInDim S50000x4x32 ![] bcast_S_S50000x4x32 (constant S_ .f32 0x00000000#32))
    (broadcastInDim S800000x1 ![0] bcast_S800000_S800000x1_0 dst) msg

/-- The weights summed per target node. -/
def kSumW (dst : IVec S800000 32) (w : FVec Ideal S800000x4 .f32) : FVec Ideal S50000x4 .f32 :=
  Host.scatterAdd scatter_S50000x4_S800000x1_S800000x4_1_0_0_1
    (broadcastInDim S50000x4 ![] bcast_S_S50000x4 (constant S_ .f32 0x00000000#32))
    (broadcastInDim S800000x1 ![0] bcast_S800000_S800000x1_0 dst) w

/-- The kernel program's result. -/
def kerOut (x : FVec Ideal S50000x128 .f32) (ei : IVec S2x800000 32) (ew : FVec Ideal S800000 .f32)
    (W : FVec Ideal S128x128 .f32) (att : FVec Ideal S1x4x64 .f32) : FVec Ideal S50000x128 .f32 :=
  shapeCast S50000x128
    (Cert.Gat.normG
      (kSumMsg (kRow1 ei)
        (Cert.Gat.edgeMsg (kTake (kProj x W) (kRow0 ei)) (kTake (kProj x W) (kRow1 ei)) (kPriorCol ew) (kAsrc att) (kAdst att)))
      (kSumW (kRow1 ei)
        (Cert.Gat.edgeW (kTake (kProj x W) (kRow0 ei)) (kTake (kProj x W) (kRow1 ei)) (kPriorCol ew) (kAsrc att) (kAdst att))))
    shapeCasts_S50000x4x32_S50000x128

end Cert.KernelIdeal

end
-- ==== Proof.LibTypedRef.lean ====
/-
  A general fact about typed buffer references (`StableHlo.TRef`). A typed reference carries a proof that its
  buffer's type is the value's type, and moves contents between the two by transport along that proof. Transporting
  there and back is the identity, whatever the proof is: so a value written through a typed reference and read back
  through the same one is the value, with nothing to compute about the buffer's type.
-/
import Idealize.ShloMosaic.Lib.StableHlo

namespace Idealize.ShloMosaic.StableHlo.TRef

variable {sig : RefSig} {Val : EltTy → Type} {T : BufTy}

/-- Contents put into a typed reference's buffer and taken out again are the contents: the two transports compose to a
    transport along `T.Contents Val = T.Contents Val`, which is the identity. -/
theorem ofBuf_toBuf (x : TRef sig T) (v : T.Contents Val) : x.ofBuf (x.toBuf v) = v := by
  show cast _ (cast _ v) = v
  rw [cast_cast]
  exact cast_eq _ _

end Idealize.ShloMosaic.StableHlo.TRef
-- ==== Proof.KernelValue.lean ====
import proofs.«428315_j2946347565058_3_alg».proof.Proof.KernelRun
import proofs.«428315_j2946347565058_3_alg».proof.Proof.Region0
import proofs.«428315_j2946347565058_3_alg».proof.Proof.Region1
import proofs.«428315_j2946347565058_3_alg».proof.Proof.Region2
import proofs.«428315_j2946347565058_3_alg».proof.Proof.KerTerm
import proofs.«428315_j2946347565058_3_alg».proof.Proof.LibTypedRef
import Idealize.ShloMosaic.Lib.StableHlo.Run

noncomputable section

set_option maxRecDepth 16384

namespace Cert.KernelIdeal.KerValue

open Idealize.ShloMosaic Idealize.ShloMosaic.TcCoe Idealize.SL.Sem
open Cert.KernelIdeal Cert.KernelIdeal.Gen

/-! ## The host stretches, each read at the buffers the next stage takes

Every lemma here says what one stretch of host operations leaves in one buffer, as a function of what it found. -/

attribute [local irreducible] Host.gather Host.scatterAdd Host.reduce in
theorem last_v20 (Vv : Valuation τ sig (Elt Ideal)) :
    StableHlo.after (hostOps3 (F := Ideal)) Vv (Proc.devRef .tc main_v20) = shapeCast S50000x128 (Vv (Proc.devRef .tc main_v19)) shapeCasts_S50000x4x32_S50000x128 := by
  simp only [hostOps3]
  after_results
  first | rfl | skip

attribute [local irreducible] Host.gather Host.scatterAdd Host.reduce in
theorem sums_v15 (Vv : Valuation τ sig (Elt Ideal)) :
    StableHlo.after (hostOps2 (F := Ideal)) Vv (Proc.devRef .tc main_v15) = kSumMsg (Vv (Proc.devRef .tc main_v6)) (Vv (Proc.devRef .tc main_v12_0)) := by
  simp only [hostOps2]
  after_results
  first | rfl | skip

attribute [local irreducible] Host.gather Host.scatterAdd Host.reduce in
theorem sums_v18 (Vv : Valuation τ sig (Elt Ideal)) :
    StableHlo.after (hostOps2 (F := Ideal)) Vv (Proc.devRef .tc main_v18) = kSumW (Vv (Proc.devRef .tc main_v6)) (Vv (Proc.devRef .tc main_v12_1)) := by
  simp only [hostOps2]
  after_results
  first | rfl | skip

attribute [local irreducible] Host.gather Host.scatterAdd Host.reduce in
theorem cols_v9 (Vv : Valuation τ sig (Elt Ideal)) :
    StableHlo.after (hostOps1_3 (F := Ideal)) Vv (Proc.devRef .tc main_v9) = kPriorCol (Vv (Proc.devRef .tc main_arg2)) := by
  simp only [hostOps1_3]
  after_results
  first | rfl | skip

attribute [local irreducible] Host.gather Host.scatterAdd Host.reduce in
theorem cols_v10 (Vv : Valuation τ sig (Elt Ideal)) :
    StableHlo.after (hostOps1_3 (F := Ideal)) Vv (Proc.devRef .tc main_v10) = kAsrc (Vv (Proc.devRef .tc main_arg4)) := by
  simp only [hostOps1_3]
  after_results
  first | rfl | skip

attribute [local irreducible] Host.gather Host.scatterAdd Host.reduce in
theorem cols_v11 (Vv : Valuation τ sig (Elt Ideal)) :
    StableHlo.after (hostOps1_3 (F := Ideal)) Vv (Proc.devRef .tc main_v11) = kAdst (Vv (Proc.devRef .tc main_arg4)) := by
  simp only [hostOps1_3]
  after_results
  first | rfl | skip

attribute [local irreducible] Host.gather Host.scatterAdd Host.reduce in
theorem cols_v7 (Vv : Valuation τ sig (Elt Ideal)) :
    StableHlo.after (hostOps1_3 (F := Ideal)) Vv (Proc.devRef .tc main_v7) = (Vv (Proc.devRef .tc main_v7)) := by
  simp only [hostOps1_3]
  after_results
  first | rfl | skip

attribute [local irreducible] Host.gather Host.scatterAdd Host.reduce in
theorem cols_v8 (Vv : Valuation τ sig (Elt Ideal)) :
    StableHlo.after (hostOps1_3 (F := Ideal)) Vv (Proc.devRef .tc main_v8) = (Vv (Proc.devRef .tc main_v8)) := by
  simp only [hostOps1_3]
  after_results
  first | rfl | skip

attribute [local irreducible] Host.gather Host.scatterAdd Host.reduce in
theorem cols_v6 (Vv : Valuation τ sig (Elt Ideal)) :
    StableHlo.after (hostOps1_3 (F := Ideal)) Vv (Proc.devRef .tc main_v6) = (Vv (Proc.devRef .tc main_v6)) := by
  simp only [hostOps1_3]
  after_results
  first | rfl | skip

attribute [local irreducible] Host.gather Host.scatterAdd Host.reduce in
set_option maxHeartbeats 4000000 in
theorem look2_v8 (Vv : Valuation τ sig (Elt Ideal)) :
    StableHlo.after (hostOps1_2 (F := Ideal)) Vv (Proc.devRef .tc main_v8) = kTake (Vv (Proc.devRef .tc main_v2)) (Vv (Proc.devRef .tc main_v6)) := by
  simp only [hostOps1_2]
  after_results_simp
  simp only [StableHlo.TRef.ofBuf_toBuf]
  rfl

attribute [local irreducible] Host.gather Host.scatterAdd Host.reduce in
theorem look2_v7 (Vv : Valuation τ sig (Elt Ideal)) :
    StableHlo.after (hostOps1_2 (F := Ideal)) Vv (Proc.devRef .tc main_v7) = (Vv (Proc.devRef .tc main_v7)) := by
  simp only [hostOps1_2]
  after_results
  first | rfl | skip

attribute [local irreducible] Host.gather Host.scatterAdd Host.reduce in
theorem look2_v6 (Vv : Valuation τ sig (Elt Ideal)) :
    StableHlo.after (hostOps1_2 (F := Ideal)) Vv (Proc.devRef .tc main_v6) = (Vv (Proc.devRef .tc main_v6)) := by
  simp only [hostOps1_2]
  after_results
  first | rfl | skip

attribute [local irreducible] Host.gather Host.scatterAdd Host.reduce in
theorem look2_arg2 (Vv : Valuation τ sig (Elt Ideal)) :
    StableHlo.after (hostOps1_2 (F := Ideal)) Vv (Proc.devRef .tc main_arg2) = (Vv (Proc.devRef .tc main_arg2)) := by
  simp only [hostOps1_2]
  after_results
  first | rfl | skip

attribute [local irreducible] Host.gather Host.scatterAdd Host.reduce in
theorem look2_arg4 (Vv : Valuation τ sig (Elt Ideal)) :
    StableHlo.after (hostOps1_2 (F := Ideal)) Vv (Proc.devRef .tc main_arg4) = (Vv (Proc.devRef .tc main_arg4)) := by
  simp only [hostOps1_2]
  after_results
  first | rfl | skip

attribute [local irreducible] Host.gather Host.scatterAdd Host.reduce in
set_option maxHeartbeats 4000000 in
theorem look1_v7 (Vv : Valuation τ sig (Elt Ideal)) :
    StableHlo.after (hostOps1_1 (F := Ideal)) Vv (Proc.devRef .tc main_v7) = kTake (Vv (Proc.devRef .tc main_v2)) (Vv (Proc.devRef .tc main_v4)) := by
  simp only [hostOps1_1]
  after_results_simp
  simp only [StableHlo.TRef.ofBuf_toBuf]
  rfl

attribute [local irreducible] Host.gather Host.scatterAdd Host.reduce in
theorem look1_v2 (Vv : Valuation τ sig (Elt Ideal)) :
    StableHlo.after (hostOps1_1 (F := Ideal)) Vv (Proc.devRef .tc main_v2) = (Vv (Proc.devRef .tc main_v2)) := by
  simp only [hostOps1_1]
  after_results
  first | rfl | skip

attribute [local irreducible] Host.gather Host.scatterAdd Host.reduce in
theorem look1_v6 (Vv : Valuation τ sig (Elt Ideal)) :
    StableHlo.after (hostOps1_1 (F := Ideal)) Vv (Proc.devRef .tc main_v6) = (Vv (Proc.devRef .tc main_v6)) := by
  simp only [hostOps1_1]
  after_results
  first | rfl | skip

attribute [local irreducible] Host.gather Host.scatterAdd Host.reduce in
theorem look1_arg2 (Vv : Valuation τ sig (Elt Ideal)) :
    StableHlo.after (hostOps1_1 (F := Ideal)) Vv (Proc.devRef .tc main_arg2) = (Vv (Proc.devRef .tc main_arg2)) := by
  simp only [hostOps1_1]
  after_results
  first | rfl | skip

attribute [local irreducible] Host.gather Host.scatterAdd Host.reduce in
theorem look1_arg4 (Vv : Valuation τ sig (Elt Ideal)) :
    StableHlo.after (hostOps1_1 (F := Ideal)) Vv (Proc.devRef .tc main_arg4) = (Vv (Proc.devRef .tc main_arg4)) := by
  simp only [hostOps1_1]
  after_results
  first | rfl | skip

attribute [local irreducible] Host.gather Host.scatterAdd Host.reduce in
theorem rows_v2 (Vv : Valuation τ sig (Elt Ideal)) :
    StableHlo.after (hostOps1 (F := Ideal)) Vv (Proc.devRef .tc main_v2) = shapeCast S50000x4x32 (Vv (Proc.devRef .tc main_v1)) shapeCasts_S50000x128_S50000x4x32 := by
  simp only [hostOps1]
  after_results
  first | rfl | skip

attribute [local irreducible] Host.gather Host.scatterAdd Host.reduce in
theorem rows_v4 (Vv : Valuation τ sig (Elt Ideal)) :
    StableHlo.after (hostOps1 (F := Ideal)) Vv (Proc.devRef .tc main_v4) = kRow0 (Vv (Proc.devRef .tc main_arg1)) := by
  simp only [hostOps1]
  after_results
  first | rfl | skip

attribute [local irreducible] Host.gather Host.scatterAdd Host.reduce in
theorem rows_v6 (Vv : Valuation τ sig (Elt Ideal)) :
    StableHlo.after (hostOps1 (F := Ideal)) Vv (Proc.devRef .tc main_v6) = kRow1 (Vv (Proc.devRef .tc main_arg1)) := by
  simp only [hostOps1]
  after_results
  first | rfl | skip

attribute [local irreducible] Host.gather Host.scatterAdd Host.reduce in
theorem rows_arg2 (Vv : Valuation τ sig (Elt Ideal)) :
    StableHlo.after (hostOps1 (F := Ideal)) Vv (Proc.devRef .tc main_arg2) = (Vv (Proc.devRef .tc main_arg2)) := by
  simp only [hostOps1]
  after_results
  first | rfl | skip

attribute [local irreducible] Host.gather Host.scatterAdd Host.reduce in
theorem rows_arg4 (Vv : Valuation τ sig (Elt Ideal)) :
    StableHlo.after (hostOps1 (F := Ideal)) Vv (Proc.devRef .tc main_arg4) = (Vv (Proc.devRef .tc main_arg4)) := by
  simp only [hostOps1]
  after_results
  first | rfl | skip

attribute [local irreducible] Host.gather Host.scatterAdd Host.reduce in
theorem first_v0 (Vv : Valuation τ sig (Elt Ideal)) :
    StableHlo.after (hostOps0 (F := Ideal)) Vv (Proc.devRef .tc main_v0) = transpose S128x128 [1, 0] (Vv (Proc.devRef .tc main_arg3)) transposes_S128x128_S128x128_1_0 := by
  simp only [hostOps0]
  after_results
  first | rfl | skip

attribute [local irreducible] Host.gather Host.scatterAdd Host.reduce in
theorem first_arg0 (Vv : Valuation τ sig (Elt Ideal)) :
    StableHlo.after (hostOps0 (F := Ideal)) Vv (Proc.devRef .tc main_arg0) = (Vv (Proc.devRef .tc main_arg0)) := by
  simp only [hostOps0]
  after_results
  first | rfl | skip

attribute [local irreducible] Host.gather Host.scatterAdd Host.reduce in
theorem first_arg1 (Vv : Valuation τ sig (Elt Ideal)) :
    StableHlo.after (hostOps0 (F := Ideal)) Vv (Proc.devRef .tc main_arg1) = (Vv (Proc.devRef .tc main_arg1)) := by
  simp only [hostOps0]
  after_results
  first | rfl | skip

attribute [local irreducible] Host.gather Host.scatterAdd Host.reduce in
theorem first_arg2 (Vv : Valuation τ sig (Elt Ideal)) :
    StableHlo.after (hostOps0 (F := Ideal)) Vv (Proc.devRef .tc main_arg2) = (Vv (Proc.devRef .tc main_arg2)) := by
  simp only [hostOps0]
  after_results
  first | rfl | skip

attribute [local irreducible] Host.gather Host.scatterAdd Host.reduce in
theorem first_arg4 (Vv : Valuation τ sig (Elt Ideal)) :
    StableHlo.after (hostOps0 (F := Ideal)) Vv (Proc.devRef .tc main_arg4) = (Vv (Proc.devRef .tc main_arg4)) := by
  simp only [hostOps0]
  after_results
  first | rfl | skip

/-! ## The fold from the launch memory to the result

Boundary by boundary, each buffer the later stages read is named as a function of the five argument arrays. -/

variable (m : (ℓ : Loc nD τ sig) → Buf (Elt Ideal) ℓ) (ρ : Dev nD → PrngReg)

/-- The result buffer's contents at the last boundary are `kerOut` of the argument arrays: the fold through the host
    stretches and the three regions, each region's arrays at its whole-array function. -/
theorem out_eq (c : Dev nD) :
    W10 (F := Ideal) m ρ c (Proc.devRef .tc main_v20)
      = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  -- the arguments as region 0 leaves them
  have e1 : W2 m ρ c (Proc.devRef .tc main_arg1) = (m ((c.tc : Thread nD τ).loc main_arg1)) := (W2_of_ne m ρ c main_arg1 (by decide)).trans (first_arg1 (W0 m ρ c))
  have e2 : W2 m ρ c (Proc.devRef .tc main_arg2) = (m ((c.tc : Thread nD τ).loc main_arg2)) := (W2_of_ne m ρ c main_arg2 (by decide)).trans (first_arg2 (W0 m ρ c))
  have e4 : W2 m ρ c (Proc.devRef .tc main_arg4) = (m ((c.tc : Thread nD τ).loc main_arg4)) := (W2_of_ne m ρ c main_arg4 (by decide)).trans (first_arg4 (W0 m ρ c))
  -- region 0: the projection
  have hmat : W2 m ρ c (Proc.devRef .tc main_v1)
      = Cert.Gat.matG (m ((c.tc : Thread nD τ).loc main_arg0)) (transpose S128x128 [1, 0] (m ((c.tc : Thread nD τ).loc main_arg3)) transposes_S128x128_S128x128_1_0) := by
    refine (W2_arr m ρ c 2).trans ((Region0.final (V1 m ρ) c).trans ?_)
    show Cert.Gat.matG (W1 m ρ c (Proc.devRef .tc main_arg0)) (W1 m ρ c (Proc.devRef .tc main_v0)) = _
    rw [show W1 m ρ c (Proc.devRef .tc main_arg0) = (m ((c.tc : Thread nD τ).loc main_arg0)) from first_arg0 (W0 m ρ c),
      show W1 m ρ c (Proc.devRef .tc main_v0) = transpose S128x128 [1, 0] (m ((c.tc : Thread nD τ).loc main_arg3)) transposes_S128x128_S128x128_1_0 from first_v0 (W0 m ρ c)]
  -- the rows of the edge list and the projected table read as heads
  have h2 : W3 m ρ c (Proc.devRef .tc main_v2) = (kProj (m ((c.tc : Thread nD τ).loc main_arg0)) (m ((c.tc : Thread nD τ).loc main_arg3))) := (rows_v2 (W2 m ρ c)).trans (by rw [hmat]; rfl)
  have h4 : W3 m ρ c (Proc.devRef .tc main_v4) = (kRow0 (m ((c.tc : Thread nD τ).loc main_arg1))) := (rows_v4 (W2 m ρ c)).trans (by rw [e1])
  have h6 : W3 m ρ c (Proc.devRef .tc main_v6) = (kRow1 (m ((c.tc : Thread nD τ).loc main_arg1))) := (rows_v6 (W2 m ρ c)).trans (by rw [e1])
  have f2 : W3 m ρ c (Proc.devRef .tc main_arg2) = (m ((c.tc : Thread nD τ).loc main_arg2)) := (rows_arg2 (W2 m ρ c)).trans e2
  have f4 : W3 m ρ c (Proc.devRef .tc main_arg4) = (m ((c.tc : Thread nD τ).loc main_arg4)) := (rows_arg4 (W2 m ρ c)).trans e4
  -- the first lookup (source rows)
  have g7 : W4 m ρ c (Proc.devRef .tc main_v7) = (kTake (kProj (m ((c.tc : Thread nD τ).loc main_arg0)) (m ((c.tc : Thread nD τ).loc main_arg3))) (kRow0 (m ((c.tc : Thread nD τ).loc main_arg1)))) := (look1_v7 (W3 m ρ c)).trans (by rw [h2, h4])
  have g2 : W4 m ρ c (Proc.devRef .tc main_v2) = (kProj (m ((c.tc : Thread nD τ).loc main_arg0)) (m ((c.tc : Thread nD τ).loc main_arg3))) := (look1_v2 (W3 m ρ c)).trans h2
  have g6 : W4 m ρ c (Proc.devRef .tc main_v6) = (kRow1 (m ((c.tc : Thread nD τ).loc main_arg1))) := (look1_v6 (W3 m ρ c)).trans h6
  have ga2 : W4 m ρ c (Proc.devRef .tc main_arg2) = (m ((c.tc : Thread nD τ).loc main_arg2)) := (look1_arg2 (W3 m ρ c)).trans f2
  have ga4 : W4 m ρ c (Proc.devRef .tc main_arg4) = (m ((c.tc : Thread nD τ).loc main_arg4)) := (look1_arg4 (W3 m ρ c)).trans f4
  -- the second lookup (target rows)
  have k8 : W5 m ρ c (Proc.devRef .tc main_v8) = (kTake (kProj (m ((c.tc : Thread nD τ).loc main_arg0)) (m ((c.tc : Thread nD τ).loc main_arg3))) (kRow1 (m ((c.tc : Thread nD τ).loc main_arg1)))) := (look2_v8 (W4 m ρ c)).trans (by rw [g2, g6])
  have k7 : W5 m ρ c (Proc.devRef .tc main_v7) = (kTake (kProj (m ((c.tc : Thread nD τ).loc main_arg0)) (m ((c.tc : Thread nD τ).loc main_arg3))) (kRow0 (m ((c.tc : Thread nD τ).loc main_arg1)))) := (look2_v7 (W4 m ρ c)).trans g7
  have k6 : W5 m ρ c (Proc.devRef .tc main_v6) = (kRow1 (m ((c.tc : Thread nD τ).loc main_arg1))) := (look2_v6 (W4 m ρ c)).trans g6
  have ka2 : W5 m ρ c (Proc.devRef .tc main_arg2) = (m ((c.tc : Thread nD τ).loc main_arg2)) := (look2_arg2 (W4 m ρ c)).trans ga2
  have ka4 : W5 m ρ c (Proc.devRef .tc main_arg4) = (m ((c.tc : Thread nD τ).loc main_arg4)) := (look2_arg4 (W4 m ρ c)).trans ga4
  -- the prior's column and the two attention vectors: region 1's entry
  have l7 : W6 m ρ c (Proc.devRef .tc main_v7) = (kTake (kProj (m ((c.tc : Thread nD τ).loc main_arg0)) (m ((c.tc : Thread nD τ).loc main_arg3))) (kRow0 (m ((c.tc : Thread nD τ).loc main_arg1)))) := (cols_v7 (W5 m ρ c)).trans k7
  have l8 : W6 m ρ c (Proc.devRef .tc main_v8) = (kTake (kProj (m ((c.tc : Thread nD τ).loc main_arg0)) (m ((c.tc : Thread nD τ).loc main_arg3))) (kRow1 (m ((c.tc : Thread nD τ).loc main_arg1)))) := (cols_v8 (W5 m ρ c)).trans k8
  have l9 : W6 m ρ c (Proc.devRef .tc main_v9) = (kPriorCol (m ((c.tc : Thread nD τ).loc main_arg2))) := (cols_v9 (W5 m ρ c)).trans (by rw [ka2])
  have l10 : W6 m ρ c (Proc.devRef .tc main_v10) = (kAsrc (m ((c.tc : Thread nD τ).loc main_arg4))) := (cols_v10 (W5 m ρ c)).trans (by rw [ka4])
  have l11 : W6 m ρ c (Proc.devRef .tc main_v11) = (kAdst (m ((c.tc : Thread nD τ).loc main_arg4))) := (cols_v11 (W5 m ρ c)).trans (by rw [ka4])
  have l6 : W6 m ρ c (Proc.devRef .tc main_v6) = (kRow1 (m ((c.tc : Thread nD τ).loc main_arg1))) := (cols_v6 (W5 m ρ c)).trans k6
  -- region 1: messages and weights
  have hmsg : W7 m ρ c (Proc.devRef .tc main_v12_0) = (Cert.Gat.edgeMsg (kTake (kProj (m ((c.tc : Thread nD τ).loc main_arg0)) (m ((c.tc : Thread nD τ).loc main_arg3))) (kRow0 (m ((c.tc : Thread nD τ).loc main_arg1)))) (kTake (kProj (m ((c.tc : Thread nD τ).loc main_arg0)) (m ((c.tc : Thread nD τ).loc main_arg3))) (kRow1 (m ((c.tc : Thread nD τ).loc main_arg1)))) (kPriorCol (m ((c.tc : Thread nD τ).loc main_arg2))) (kAsrc (m ((c.tc : Thread nD τ).loc main_arg4))) (kAdst (m ((c.tc : Thread nD τ).loc main_arg4)))) := by
    refine (W7_arr m ρ c 5).trans ((Region1.final_msg (V6 m ρ) c).trans ?_)
    show Cert.Gat.edgeMsg (W6 m ρ c (Proc.devRef .tc main_v7)) (W6 m ρ c (Proc.devRef .tc main_v8)) (W6 m ρ c (Proc.devRef .tc main_v9)) (W6 m ρ c (Proc.devRef .tc main_v10)) (W6 m ρ c (Proc.devRef .tc main_v11)) = _
    rw [l7, l8, l9, l10, l11]
  have hw : W7 m ρ c (Proc.devRef .tc main_v12_1) = (Cert.Gat.edgeW (kTake (kProj (m ((c.tc : Thread nD τ).loc main_arg0)) (m ((c.tc : Thread nD τ).loc main_arg3))) (kRow0 (m ((c.tc : Thread nD τ).loc main_arg1)))) (kTake (kProj (m ((c.tc : Thread nD τ).loc main_arg0)) (m ((c.tc : Thread nD τ).loc main_arg3))) (kRow1 (m ((c.tc : Thread nD τ).loc main_arg1)))) (kPriorCol (m ((c.tc : Thread nD τ).loc main_arg2))) (kAsrc (m ((c.tc : Thread nD τ).loc main_arg4))) (kAdst (m ((c.tc : Thread nD τ).loc main_arg4)))) := by
    refine (W7_arr m ρ c 6).trans ((Region1.final_w (V6 m ρ) c).trans ?_)
    show Cert.Gat.edgeW (W6 m ρ c (Proc.devRef .tc main_v7)) (W6 m ρ c (Proc.devRef .tc main_v8)) (W6 m ρ c (Proc.devRef .tc main_v9)) (W6 m ρ c (Proc.devRef .tc main_v10)) (W6 m ρ c (Proc.devRef .tc main_v11)) = _
    rw [l7, l8, l9, l10, l11]
  have n6 : W7 m ρ c (Proc.devRef .tc main_v6) = (kRow1 (m ((c.tc : Thread nD τ).loc main_arg1))) := (W7_of_ne m ρ c main_v6 (by decide)).trans l6
  -- the two sums per target node: region 2's entry
  have s15 : W8 m ρ c (Proc.devRef .tc main_v15) = kSumMsg (kRow1 (m ((c.tc : Thread nD τ).loc main_arg1))) (Cert.Gat.edgeMsg (kTake (kProj (m ((c.tc : Thread nD τ).loc main_arg0)) (m ((c.tc : Thread nD τ).loc main_arg3))) (kRow0 (m ((c.tc : Thread nD τ).loc main_arg1)))) (kTake (kProj (m ((c.tc : Thread nD τ).loc main_arg0)) (m ((c.tc : Thread nD τ).loc main_arg3))) (kRow1 (m ((c.tc : Thread nD τ).loc main_arg1)))) (kPriorCol (m ((c.tc : Thread nD τ).loc main_arg2))) (kAsrc (m ((c.tc : Thread nD τ).loc main_arg4))) (kAdst (m ((c.tc : Thread nD τ).loc main_arg4)))) := (sums_v15 (W7 m ρ c)).trans (by rw [n6, hmsg])
  have s18 : W8 m ρ c (Proc.devRef .tc main_v18) = kSumW (kRow1 (m ((c.tc : Thread nD τ).loc main_arg1))) (Cert.Gat.edgeW (kTake (kProj (m ((c.tc : Thread nD τ).loc main_arg0)) (m ((c.tc : Thread nD τ).loc main_arg3))) (kRow0 (m ((c.tc : Thread nD τ).loc main_arg1)))) (kTake (kProj (m ((c.tc : Thread nD τ).loc main_arg0)) (m ((c.tc : Thread nD τ).loc main_arg3))) (kRow1 (m ((c.tc : Thread nD τ).loc main_arg1)))) (kPriorCol (m ((c.tc : Thread nD τ).loc main_arg2))) (kAsrc (m ((c.tc : Thread nD τ).loc main_arg4))) (kAdst (m ((c.tc : Thread nD τ).loc main_arg4)))) := (sums_v18 (W7 m ρ c)).trans (by rw [n6, hw])
  -- region 2: the normalisation
  have hn : W9 m ρ c (Proc.devRef .tc main_v19) = Cert.Gat.normG (kSumMsg (kRow1 (m ((c.tc : Thread nD τ).loc main_arg1))) (Cert.Gat.edgeMsg (kTake (kProj (m ((c.tc : Thread nD τ).loc main_arg0)) (m ((c.tc : Thread nD τ).loc main_arg3))) (kRow0 (m ((c.tc : Thread nD τ).loc main_arg1)))) (kTake (kProj (m ((c.tc : Thread nD τ).loc main_arg0)) (m ((c.tc : Thread nD τ).loc main_arg3))) (kRow1 (m ((c.tc : Thread nD τ).loc main_arg1)))) (kPriorCol (m ((c.tc : Thread nD τ).loc main_arg2))) (kAsrc (m ((c.tc : Thread nD τ).loc main_arg4))) (kAdst (m ((c.tc : Thread nD τ).loc main_arg4))))) (kSumW (kRow1 (m ((c.tc : Thread nD τ).loc main_arg1))) (Cert.Gat.edgeW (kTake (kProj (m ((c.tc : Thread nD τ).loc main_arg0)) (m ((c.tc : Thread nD τ).loc main_arg3))) (kRow0 (m ((c.tc : Thread nD τ).loc main_arg1)))) (kTake (kProj (m ((c.tc : Thread nD τ).loc main_arg0)) (m ((c.tc : Thread nD τ).loc main_arg3))) (kRow1 (m ((c.tc : Thread nD τ).loc main_arg1)))) (kPriorCol (m ((c.tc : Thread nD τ).loc main_arg2))) (kAsrc (m ((c.tc : Thread nD τ).loc main_arg4))) (kAdst (m ((c.tc : Thread nD τ).loc main_arg4))))) := by
    refine (W9_arr m ρ c 2).trans ((Region2.final (V8 m ρ) c).trans ?_)
    show Cert.Gat.normG (W8 m ρ c (Proc.devRef .tc main_v15)) (W8 m ρ c (Proc.devRef .tc main_v18)) = _
    rw [s15, s18]
  exact (last_v20 (W9 m ρ c)).trans (by rw [hn]; rfl)

/-- The kernel program's run with its result at `kerOut` of the argument arrays. -/
theorem run : θ_run (defs (F := Ideal)) (onTc (τ := τ) (main (F := Ideal))) ⟨m, fun _ => 0, ρ⟩ (fun r => ∀ c : Dev nD,
      r.2.mem ((c.tc : Thread nD τ).loc main_v20)
        = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (out_eq m ρ c), (h c).2⟩) (run_out m ρ)

end Cert.KernelIdeal.KerValue

end
-- ==== Proof.RefTerm.lean ====
import proofs.«428315_j2946347565058_3_alg».proof.Proof.Gen.ReferenceIdeal

/-!
# The reference's result as one term

The reference computes one graph-attention layer with whole-array host operations. Its result is written
here stage by stage, each stage a named function of the stages before it: the projection read as heads, the
two rows of the edge list, the wrap of a negative row number, the row gather, the two attention vectors, the
logits, the leaky rectifier, the clipped prior, the edge weights, the messages, the two sums per target node
and the normalisation.
-/

noncomputable section

namespace Cert.ReferenceIdeal

open Idealize.ShloMosaic Facts₀ Facts

variable {F : FTy → Type} [FloatOps F]

/-- `x · Wᵀ`, its 128 columns read as 4 heads of 32. -/
def tProj (x : FVec F S50000x128 .f32) (W : FVec F S128x128 .f32) : FVec F S50000x4x32 .f32 :=
  shapeCast S50000x4x32 (Host.dotGeneral dot_S50000x128_S128x128_S50000x128_1_0_0_1_n_n none x
    (transpose S128x128 [1, 0] W transposes_S128x128_S128x128_1_0)) shapeCasts_S50000x128_S50000x4x32

/-- The source row numbers: row 0 of the edge list. -/
def tRow0 (ei : IVec S2x800000 32) : IVec S800000 32 :=
  shapeCast S800000 (extractStridedSlice S1x800000 ![0, 0] ei slices_S2x800000_S1x800000_0_0) shapeCasts_S1x800000_S800000

/-- The target row numbers: row 1 of the edge list. -/
def tRow1 (ei : IVec S2x800000 32) : IVec S800000 32 :=
  shapeCast S800000 (extractStridedSlice S1x800000 ![1, 0] ei slices_S2x800000_S1x800000_1_0) shapeCasts_S1x800000_S800000

/-- A negative row number counts from the end: `i + 50000` where `i < 0`, as a column. -/
def tWrap (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- The rows of the node table the (wrapped) row numbers name. -/
def tGather (h : FVec F S50000x4x32 .f32) (i : IVec S800000 32) : FVec F S800000x4x32 .f32 :=
  Host.gather gather_S50000x4x32_S800000x1_S800000x4x32_12_0_n_n_0_1_1432 h (tWrap i)

/-- The attention vector applied to source rows. -/
def tAsrc (att : FVec F S1x4x64 .f32) : FVec F S1x4x32 .f32 :=
  extractStridedSlice S1x4x32 ![0, 0, 0] att slices_S1x4x64_S1x4x32_0_0_0

/-- The attention vector applied to target rows. -/
def tAdst (att : FVec F S1x4x64 .f32) : FVec F S1x4x32 .f32 :=
  extractStridedSlice S1x4x32 ![0, 0, 32] att slices_S1x4x64_S1x4x32_0_0_32

/-- The logits before the rectifier. -/
def tLogit (hs hd : FVec F S800000x4x32 .f32) (asrc adst : FVec F S1x4x32 .f32) : FVec F S800000x4 .f32 :=
  addf
    (Host.reduceAdd (mulf hs (broadcastInDim S800000x4x32 ![0, 1, 2] bcast_S1x4x32_S800000x4x32_0_1_2 asrc))
      (constant S_ .f32 0x00000000#32) reducesTo_S800000x4x32_S800000x4_d2 h_S_)
    (Host.reduceAdd (mulf hd (broadcastInDim S800000x4x32 ![0, 1, 2] bcast_S1x4x32_S800000x4x32_0_1_2 adst))
      (constant S_ .f32 0x00000000#32) reducesTo_S800000x4x32_S800000x4_d2 h_S_)

/-- The leaky rectifier, elementwise. -/
def tLeaky (z : FVec F S800000x4 .f32) : FVec F S800000x4 .f32 :=
  select (cmpf .oge z (broadcastInDim S800000x4 ![] bcast_S_S800000x4 (constant S_ .f32 0x00000000#32))) z
    (mulf (broadcastInDim S800000x4 ![] bcast_S_S800000x4 (id (constant S_ .f32 0x3E4CCCCD#32))) z)

/-- The prior clipped from below, as a column. -/
def tPrior (ew : FVec F S800000 .f32) : FVec F S800000x1 .f32 :=
  broadcastInDim S800000x1 ![0] bcast_S800000_S800000x1_0
    (maximumf (broadcastInDim S800000 ![] bcast_S_S800000 (id (constant S_ .f32 0x322BCC77#32))) ew)

/-- The edge weights. -/
def tWeights (hs hd : FVec F S800000x4x32 .f32) (ew : FVec F S800000 .f32) (asrc adst : FVec F S1x4x32 .f32) :
    FVec F S800000x4 .f32 :=
  mulf (broadcastInDim S800000x4 ![0, 1] bcast_S800000x1_S800000x4_0_1 (tPrior ew)) (Host.exp (tLeaky (tLogit hs hd asrc adst)))

/-- The messages: each weight times the source row. -/
def tMsg (w : FVec F S800000x4 .f32) (hs : FVec F S800000x4x32 .f32) : FVec F S800000x4x32 .f32 :=
  mulf (broadcastInDim S800000x4x32 ![0, 1, 2] bcast_S800000x4x1_S800000x4x32_0_1_2
    (broadcastInDim S800000x4x1 ![0, 1] bcast_S800000x4_S800000x4x1_0_1 w)) hs

/-- The messages summed per target node. -/
def tSumMsg (dst : IVec S800000 32) (msg : FVec F S800000x4x32 .f32) : FVec F S50000x4x32 .f32 :=
  Host.scatterAdd scatter_S50000x4x32_S800000x1_S800000x4x32_12_0_0_1
    (broadcastInDim S50000x4x32 ![] bcast_S_S50000x4x32 (constant S_ .f32 0x00000000#32))
    (broadcastInDim S800000x1 ![0] bcast_S800000_S800000x1_0 dst) msg

/-- The weights summed per target node. -/
def tSumW (dst : IVec S800000 32) (w : FVec F S800000x4 .f32) : FVec F S50000x4 .f32 :=
  Host.scatterAdd scatter_S50000x4_S800000x1_S800000x4_1_0_0_1
    (broadcastInDim S50000x4 ![] bcast_S_S50000x4 (constant S_ .f32 0x00000000#32))
    (broadcastInDim S800000x1 ![0] bcast_S800000_S800000x1_0 dst) w

/-- The normalisation. -/
def tNorm (o : FVec F S50000x4x32 .f32) (a : FVec F S50000x4 .f32) : FVec F S50000x4x32 .f32 :=
  Host.divf o (broadcastInDim S50000x4x32 ![0, 1, 2] bcast_S50000x4x1_S50000x4x32_0_1_2
    (addf (broadcastInDim S50000x4x1 ![0, 1] bcast_S50000x4_S50000x4x1_0_1 a)
      (broadcastInDim S50000x4x1 ![] bcast_S_S50000x4x1 (constant S_ .f32 0x322BCC77#32))))

/-- The reference's result. -/
def refOut (x : FVec F S50000x128 .f32) (ei : IVec S2x800000 32) (ew : FVec F S800000 .f32) (W : FVec F S128x128 .f32)
    (att : FVec F S1x4x64 .f32) : FVec F S50000x128 .f32 :=
  shapeCast S50000x128
    (tNorm
      (tSumMsg (tRow1 ei)
        (tMsg (tWeights (tGather (tProj x W) (tRow0 ei)) (tGather (tProj x W) (tRow1 ei)) ew (tAsrc att) (tAdst att))
          (tGather (tProj x W) (tRow0 ei))))
      (tSumW (tRow1 ei)
        (tWeights (tGather (tProj x W) (tRow0 ei)) (tGather (tProj x W) (tRow1 ei)) ew (tAsrc att) (tAdst att))))
    shapeCasts_S50000x4x32_S50000x128

end Cert.ReferenceIdeal

end
-- ==== Proof.RefRun.lean ====
import proofs.«428315_j2946347565058_3_alg».proof.Proof.RefTerm
import Idealize.ShloMosaic.Lib.StableHlo.Run

noncomputable section

namespace Cert.ReferenceIdeal.RefValue

open Idealize.ShloMosaic Idealize.SL.Sem Cert.ReferenceIdeal
open Idealize.ShloMosaic.TcCoe Idealize.ShloMosaic.StableHlo Facts₀ Facts

variable {F : FTy → Type} [FloatOps F]

/-- @main as one straight line: its own operations in order, each callee's operations written at the call
    over that call's buffers (the rectifier's six and the select it calls; the clip's three). -/
abbrev ops : List (HloOp τ sig (Elt F)) :=
  [ StableHlo.unary main_arg3 main_v0 ((transpose S128x128 [1, 0] · transposes_S128x128_S128x128_1_0) : (⟨S128x128, .f32⟩ : BufTy).Contents (Elt F) → (⟨S128x128, .f32⟩ : BufTy).Contents (Elt F)),
    StableHlo.binary main_arg0 main_v0 main_v1 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.reshape main_v1 main_v2 rfl shapeCasts_S50000x128_S50000x4x32,
    StableHlo.unary main_arg1 main_v3 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v3 main_v4 rfl shapeCasts_S1x800000_S800000,
    StableHlo.unary main_arg1 main_v5 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v5 main_v6 rfl shapeCasts_S1x800000_S800000,
    StableHlo.nullary main_c (constantI S_ 32 0#32),
    StableHlo.unary main_c main_v7 (broadcastInDim S800000 ![] bcast_S_S800000 : (⟨S_, .i32⟩ : BufTy).Contents (Elt F) → (⟨S800000, .i32⟩ : BufTy).Contents (Elt F)),
    StableHlo.binary main_v4 main_v7 main_v8 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v9 (broadcastInDim S800000 ![] bcast_S_S800000 : (⟨S_, .i32⟩ : BufTy).Contents (Elt F) → (⟨S800000, .i32⟩ : BufTy).Contents (Elt F)),
    StableHlo.binary main_v4 main_v9 main_v10 (addi : (⟨S800000, .i32⟩ : BufTy).Contents (Elt F) → (⟨S800000, .i32⟩ : BufTy).Contents (Elt F) → (⟨S800000, .i32⟩ : BufTy).Contents (Elt F)),
    StableHlo.ternary main_v8 main_v10 main_v4 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v11 main_v12 (broadcastInDim S800000x1 ![0] bcast_S800000_S800000x1_0 : (⟨S800000, .i32⟩ : BufTy).Contents (Elt F) → (⟨S800000x1, .i32⟩ : BufTy).Contents (Elt F)),
    StableHlo.binary main_v2 main_v12 main_v13 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    StableHlo.nullary main_c_1 (constantI S_ 32 0#32),
    StableHlo.unary main_c_1 main_v14 (broadcastInDim S800000 ![] bcast_S_S800000 : (⟨S_, .i32⟩ : BufTy).Contents (Elt F) → (⟨S800000, .i32⟩ : BufTy).Contents (Elt F)),
    StableHlo.binary main_v6 main_v14 main_v15 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v16 (broadcastInDim S800000 ![] bcast_S_S800000 : (⟨S_, .i32⟩ : BufTy).Contents (Elt F) → (⟨S800000, .i32⟩ : BufTy).Contents (Elt F)),
    StableHlo.binary main_v6 main_v16 main_v17 (addi : (⟨S800000, .i32⟩ : BufTy).Contents (Elt F) → (⟨S800000, .i32⟩ : BufTy).Contents (Elt F) → (⟨S800000, .i32⟩ : BufTy).Contents (Elt F)),
    StableHlo.ternary main_v15 main_v17 main_v6 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v18 main_v19 (broadcastInDim S800000x1 ![0] bcast_S800000_S800000x1_0 : (⟨S800000, .i32⟩ : BufTy).Contents (Elt F) → (⟨S800000x1, .i32⟩ : BufTy).Contents (Elt F)),
    StableHlo.binary main_v2 main_v19 main_v20 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    StableHlo.unary main_arg4 main_v21 ((extractStridedSlice S1x4x32 ![0, 0, 0] · slices_S1x4x64_S1x4x32_0_0_0) : (⟨S1x4x64, .f32⟩ : BufTy).Contents (Elt F) → (⟨S1x4x32, .f32⟩ : BufTy).Contents (Elt F)),
    StableHlo.unary main_arg4 main_v22 ((extractStridedSlice S1x4x32 ![0, 0, 32] · slices_S1x4x64_S1x4x32_0_0_32) : (⟨S1x4x64, .f32⟩ : BufTy).Contents (Elt F) → (⟨S1x4x32, .f32⟩ : BufTy).Contents (Elt F)),
    StableHlo.unary main_v21 main_v23 (broadcastInDim S800000x4x32 ![0, 1, 2] bcast_S1x4x32_S800000x4x32_0_1_2 : (⟨S1x4x32, .f32⟩ : BufTy).Contents (Elt F) → (⟨S800000x4x32, .f32⟩ : BufTy).Contents (Elt F)),
    StableHlo.binary main_v13 main_v23 main_v24 (mulf : (⟨S800000x4x32, .f32⟩ : BufTy).Contents (Elt F) → (⟨S800000x4x32, .f32⟩ : BufTy).Contents (Elt F) → (⟨S800000x4x32, .f32⟩ : BufTy).Contents (Elt F)),
    StableHlo.nullary main_cst (constant S_ .f32 0x00000000#32),
    StableHlo.binary main_v24 main_cst main_v25 ((fun x v => Host.reduceAdd x v reducesTo_S800000x4x32_S800000x4_d2 h_S_) : (⟨S800000x4x32, .f32⟩ : BufTy).Contents (Elt F) → (⟨S_, .f32⟩ : BufTy).Contents (Elt F) → (⟨S800000x4, .f32⟩ : BufTy).Contents (Elt F)),
    StableHlo.unary main_v22 main_v26 (broadcastInDim S800000x4x32 ![0, 1, 2] bcast_S1x4x32_S800000x4x32_0_1_2 : (⟨S1x4x32, .f32⟩ : BufTy).Contents (Elt F) → (⟨S800000x4x32, .f32⟩ : BufTy).Contents (Elt F)),
    StableHlo.binary main_v20 main_v26 main_v27 (mulf : (⟨S800000x4x32, .f32⟩ : BufTy).Contents (Elt F) → (⟨S800000x4x32, .f32⟩ : BufTy).Contents (Elt F) → (⟨S800000x4x32, .f32⟩ : BufTy).Contents (Elt F)),
    StableHlo.nullary main_cst_3 (constant S_ .f32 0x00000000#32),
    StableHlo.binary main_v27 main_cst_3 main_v28 ((fun x v => Host.reduceAdd x v reducesTo_S800000x4x32_S800000x4_d2 h_S_) : (⟨S800000x4x32, .f32⟩ : BufTy).Contents (Elt F) → (⟨S_, .f32⟩ : BufTy).Contents (Elt F) → (⟨S800000x4, .f32⟩ : BufTy).Contents (Elt F)),
    StableHlo.binary main_v25 main_v28 main_v29 (addf : (⟨S800000x4, .f32⟩ : BufTy).Contents (Elt F) → (⟨S800000x4, .f32⟩ : BufTy).Contents (Elt F) → (⟨S800000x4, .f32⟩ : BufTy).Contents (Elt F)),
    StableHlo.nullary main_cst_4 (constant S_ .f32 0x3E4CCCCD#32),
    StableHlo.TRef.nullary main_call0.cst (constant S_ .f32 0x00000000#32),
    StableHlo.TRef.unary main_call0.cst main_call0.v0 (broadcastInDim S800000x4 ![] bcast_S_S800000x4),
    StableHlo.TRef.binary (.of main_v29) main_call0.v0 main_call0.v1 (cmpf .oge),
    StableHlo.TRef.unary (.of main_cst_4) main_call0.v2 id,
    StableHlo.TRef.unary main_call0.v2 main_call0.v3 (broadcastInDim S800000x4 ![] bcast_S_S800000x4),
    StableHlo.TRef.binary main_call0.v3 (.of main_v29) main_call0.v4 mulf,
    StableHlo.TRef.ternary main_call0.v1 (.of main_v29) main_call0.v4 main_call0.call0.v0 select,
    StableHlo.nullary main_cst_5 (constant S_ .f32 0x322BCC77#32),
    StableHlo.TRef.unary (.of main_cst_5) main_call1.v0 id,
    StableHlo.TRef.unary main_call1.v0 main_call1.v1 (broadcastInDim S800000 ![] bcast_S_S800000),
    StableHlo.TRef.binary main_call1.v1 (.of main_arg2) main_call1.v2 maximumf,
    StableHlo.unary main_v31 main_v32 (broadcastInDim S800000x1 ![0] bcast_S800000_S800000x1_0 : (⟨S800000, .f32⟩ : BufTy).Contents (Elt F) → (⟨S800000x1, .f32⟩ : BufTy).Contents (Elt F)),
    StableHlo.unary main_v30 main_v33 (Host.exp : (⟨S800000x4, .f32⟩ : BufTy).Contents (Elt F) → (⟨S800000x4, .f32⟩ : BufTy).Contents (Elt F)),
    StableHlo.unary main_v32 main_v34 (broadcastInDim S800000x4 ![0, 1] bcast_S800000x1_S800000x4_0_1 : (⟨S800000x1, .f32⟩ : BufTy).Contents (Elt F) → (⟨S800000x4, .f32⟩ : BufTy).Contents (Elt F)),
    StableHlo.binary main_v34 main_v33 main_v35 (mulf : (⟨S800000x4, .f32⟩ : BufTy).Contents (Elt F) → (⟨S800000x4, .f32⟩ : BufTy).Contents (Elt F) → (⟨S800000x4, .f32⟩ : BufTy).Contents (Elt F)),
    StableHlo.unary main_v35 main_v36 (broadcastInDim S800000x4x1 ![0, 1] bcast_S800000x4_S800000x4x1_0_1 : (⟨S800000x4, .f32⟩ : BufTy).Contents (Elt F) → (⟨S800000x4x1, .f32⟩ : BufTy).Contents (Elt F)),
    StableHlo.unary main_v36 main_v37 (broadcastInDim S800000x4x32 ![0, 1, 2] bcast_S800000x4x1_S800000x4x32_0_1_2 : (⟨S800000x4x1, .f32⟩ : BufTy).Contents (Elt F) → (⟨S800000x4x32, .f32⟩ : BufTy).Contents (Elt F)),
    StableHlo.binary main_v37 main_v13 main_v38 (mulf : (⟨S800000x4x32, .f32⟩ : BufTy).Contents (Elt F) → (⟨S800000x4x32, .f32⟩ : BufTy).Contents (Elt F) → (⟨S800000x4x32, .f32⟩ : BufTy).Contents (Elt F)),
    StableHlo.nullary main_cst_6 (constant S_ .f32 0x00000000#32),
    StableHlo.unary main_cst_6 main_v39 (broadcastInDim S50000x4x32 ![] bcast_S_S50000x4x32 : (⟨S_, .f32⟩ : BufTy).Contents (Elt F) → (⟨S50000x4x32, .f32⟩ : BufTy).Contents (Elt F)),
    StableHlo.unary main_v6 main_v40 (broadcastInDim S800000x1 ![0] bcast_S800000_S800000x1_0 : (⟨S800000, .i32⟩ : BufTy).Contents (Elt F) → (⟨S800000x1, .i32⟩ : BufTy).Contents (Elt F)),
    StableHlo.ternary main_v39 main_v40 main_v38 main_v41 ((fun x i u => Host.scatterAdd scatter_S50000x4x32_S800000x1_S800000x4x32_12_0_0_1 x i u) : (⟨S50000x4x32, .f32⟩ : BufTy).Contents (Elt F) → (⟨S800000x1, .i32⟩ : BufTy).Contents (Elt F) → (⟨S800000x4x32, .f32⟩ : BufTy).Contents (Elt F) → (⟨S50000x4x32, .f32⟩ : BufTy).Contents (Elt F)),
    StableHlo.nullary main_cst_7 (constant S_ .f32 0x00000000#32),
    StableHlo.unary main_cst_7 main_v42 (broadcastInDim S50000x4 ![] bcast_S_S50000x4 : (⟨S_, .f32⟩ : BufTy).Contents (Elt F) → (⟨S50000x4, .f32⟩ : BufTy).Contents (Elt F)),
    StableHlo.unary main_v6 main_v43 (broadcastInDim S800000x1 ![0] bcast_S800000_S800000x1_0 : (⟨S800000, .i32⟩ : BufTy).Contents (Elt F) → (⟨S800000x1, .i32⟩ : BufTy).Contents (Elt F)),
    StableHlo.ternary main_v42 main_v43 main_v35 main_v44 ((fun x i u => Host.scatterAdd scatter_S50000x4_S800000x1_S800000x4_1_0_0_1 x i u) : (⟨S50000x4, .f32⟩ : BufTy).Contents (Elt F) → (⟨S800000x1, .i32⟩ : BufTy).Contents (Elt F) → (⟨S800000x4, .f32⟩ : BufTy).Contents (Elt F) → (⟨S50000x4, .f32⟩ : BufTy).Contents (Elt F)),
    StableHlo.unary main_v44 main_v45 (broadcastInDim S50000x4x1 ![0, 1] bcast_S50000x4_S50000x4x1_0_1 : (⟨S50000x4, .f32⟩ : BufTy).Contents (Elt F) → (⟨S50000x4x1, .f32⟩ : BufTy).Contents (Elt F)),
    StableHlo.nullary main_cst_8 (constant S_ .f32 0x322BCC77#32),
    StableHlo.unary main_cst_8 main_v46 (broadcastInDim S50000x4x1 ![] bcast_S_S50000x4x1 : (⟨S_, .f32⟩ : BufTy).Contents (Elt F) → (⟨S50000x4x1, .f32⟩ : BufTy).Contents (Elt F)),
    StableHlo.binary main_v45 main_v46 main_v47 (addf : (⟨S50000x4x1, .f32⟩ : BufTy).Contents (Elt F) → (⟨S50000x4x1, .f32⟩ : BufTy).Contents (Elt F) → (⟨S50000x4x1, .f32⟩ : BufTy).Contents (Elt F)),
    StableHlo.unary main_v47 main_v48 (broadcastInDim S50000x4x32 ![0, 1, 2] bcast_S50000x4x1_S50000x4x32_0_1_2 : (⟨S50000x4x1, .f32⟩ : BufTy).Contents (Elt F) → (⟨S50000x4x32, .f32⟩ : BufTy).Contents (Elt F)),
    StableHlo.binary main_v41 main_v48 main_v49 (Host.divf : (⟨S50000x4x32, .f32⟩ : BufTy).Contents (Elt F) → (⟨S50000x4x32, .f32⟩ : BufTy).Contents (Elt F) → (⟨S50000x4x32, .f32⟩ : BufTy).Contents (Elt F)),
    StableHlo.reshape main_v49 main_v50 rfl shapeCasts_S50000x4x32_S50000x128 ]

set_option maxRecDepth 4096 in
set_option maxHeartbeats 8000000 in
/-- @main is that line: the two windows and the three callees unfolded, sequencing reassociated. -/
theorem main_eq (c : Dev nD) : main (F := F) c = seq ops := by
  simp only [main, main_part0, main_part1, fn_leaky_relu.body, fn_clip.body, fn_where.body, seq, bind_assoc, pure_bind]

attribute [local irreducible] Host.gather Host.scatterAdd Host.reduceAdd in
set_option maxRecDepth 8192 in
set_option maxHeartbeats 1000000 in
/-- The fold at the result buffer is `refOut` of the argument arrays: each stage of `refOut` is one
    operation's function applied to the stages before it. -/
theorem out_eq (V : Valuation τ sig (Elt F)) :
    after ops V (main_v50 : DevRef τ sig)
      = refOut (V (main_arg0 : DevRef τ sig)) (V (main_arg1 : DevRef τ sig)) (V (main_arg2 : DevRef τ sig))
          (V (main_arg3 : DevRef τ sig)) (V (main_arg4 : DevRef τ sig)) := by
  after_results_simp
  rfl

attribute [local irreducible] Host.gather Host.scatterAdd Host.reduceAdd in
set_option maxRecDepth 8192 in
/-- No operation writes argument 0. -/
theorem arg0_eq (V : Valuation τ sig (Elt F)) :
    after ops V (main_arg0 : DevRef τ sig) = V (main_arg0 : DevRef τ sig) := by
  after_results_simp

attribute [local irreducible] Host.gather Host.scatterAdd Host.reduceAdd in
set_option maxRecDepth 8192 in
/-- No operation writes argument 1. -/
theorem arg1_eq (V : Valuation τ sig (Elt F)) :
    after ops V (main_arg1 : DevRef τ sig) = V (main_arg1 : DevRef τ sig) := by
  after_results_simp

attribute [local irreducible] Host.gather Host.scatterAdd Host.reduceAdd in
set_option maxRecDepth 8192 in
/-- No operation writes argument 2. -/
theorem arg2_eq (V : Valuation τ sig (Elt F)) :
    after ops V (main_arg2 : DevRef τ sig) = V (main_arg2 : DevRef τ sig) := by
  after_results_simp

attribute [local irreducible] Host.gather Host.scatterAdd Host.reduceAdd in
set_option maxRecDepth 8192 in
/-- No operation writes argument 3. -/
theorem arg3_eq (V : Valuation τ sig (Elt F)) :
    after ops V (main_arg3 : DevRef τ sig) = V (main_arg3 : DevRef τ sig) := by
  after_results_simp

attribute [local irreducible] Host.gather Host.scatterAdd Host.reduceAdd in
set_option maxRecDepth 8192 in
/-- No operation writes argument 4. -/
theorem arg4_eq (V : Valuation τ sig (Elt F)) :
    after ops V (main_arg4 : DevRef τ sig) = V (main_arg4 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., nullary_bufs_sub .., binary_bufs_sub .., unary_bufs_sub .., binary_bufs_sub .., nullary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., unary_bufs_sub .., nullary_bufs_sub .., unary_bufs_sub .., binary_bufs_sub .., unary_bufs_sub .., binary_bufs_sub .., reshape_bufs_sub ..⟩

/-- The reference's run: every weakly fair execution of @main terminates, nothing faulting, with the result buffer
    at `refOut` of the argument arrays and the argument arrays as launched. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v50)
        = refOut (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨(h c main_v50).trans (out_eq (launchContents m c)),
       (h c main_arg0).trans (arg0_eq (launchContents m c)),
       (h c main_arg1).trans (arg1_eq (launchContents m c)),
       (h c main_arg2).trans (arg2_eq (launchContents m c)),
       (h c main_arg3).trans (arg3_eq (launchContents m c)),
       (h c main_arg4).trans (arg4_eq (launchContents m c))⟩)
    (run_seq scopedRefs_eq scopedSems_eq defs main (fun _ => ops) main_eq (fun _ => ops_sub) m ρ)

end Cert.ReferenceIdeal.RefValue

end
-- ==== Proof.PreDecode.lean ====
import proofs.«428315_j2946347565058_3_alg».proof.Defs
import proofs.«428315_j2946347565058_3_alg».proof.Proof.Gen.Pre_finite_inputs
import proofs.«428315_j2946347565058_3_alg».proof.Proof.KerTerm
import Idealize.ShloMosaic.Lib.ValueIdx
import Idealize.ShloMosaic.Lib.StableHlo.Predicate
import Idealize.ShloMosaic.Lib.ReduceAll

noncomputable section

namespace Cert.PreDecode

open Idealize.ShloMosaic Idealize.ShloMosaic.ValueIdx Idealize.SL.Sem

/-- Under the precondition every source row number is a valid (possibly negative) row number of the node table. -/
theorem src_range (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 800000) :
    -50000 ≤ ((Cert.KernelIdeal.kRow0 (m ((c.tc : Thread Cert.KernelIdeal.nD Cert.KernelIdeal.τ).loc Cert.KernelIdeal.main_arg1))) (ix1 e)).toInt
    ∧ ((Cert.KernelIdeal.kRow0 (m ((c.tc : Thread Cert.KernelIdeal.nD Cert.KernelIdeal.τ).loc Cert.KernelIdeal.main_arg1))) (ix1 e)).toInt < 50000 := by
  -- The predicate has one position; there it is the conjunction of the finiteness tests and the two range tests.
  have h := congrFun (hpre c) ValueIdx.ix0
  haveI : Subsingleton Cert.Pre_finite_inputs.S_.Idx := ⟨fun a b => funext fun d => d.elim0⟩
  simp only [Cert.Pre_finite_inputs.fn, Cert.Pre_finite_inputs.fn_part1] at h
  change IntOp.andi (IntOp.andi _ _) _ = 1#1 at h
  -- A conjunction of bits is 1 exactly when each bit is 1.
  obtain ⟨h12, h3⟩ := IntOp.andi_eq_one.1 h
  obtain ⟨-, h2⟩ := IntOp.andi_eq_one.1 h12
  -- A conjunction over all 800000 positions that is 1 is 1 at position `e`.
  have hge := Host.reduce_andi_all _ _ _ _ _ h2 (ix1 e)
  have hlt := Host.reduce_andi_all _ _ _ _ _ h3 (ix1 e)
  change IntOp.cmpi .sge _ _ = 1#1 at hge
  change IntOp.cmpi .slt _ _ = 1#1 at hlt
  -- A signed comparison bit is 1 exactly when the signed readings compare so; the word 4294917296 reads as -50000.
  rw [IntOp.cmpi_sge] at hge
  rw [IntOp.cmpi_slt] at hlt
  exact ⟨hge, hlt⟩

end Cert.PreDecode

end
-- ==== Proof.RefEdge.lean ====
import proofs.«428315_j2946347565058_3_alg».proof.Proof.RefTerm
import proofs.«428315_j2946347565058_3_alg».proof.Proof.Spec
import Idealize.ShloMosaic.Lib.Pipeline.Value
import Idealize.ShloMosaic.Lib.ValueIdx
import Idealize.ShloMosaic.Lib.IdealHost
import Idealize.ShloMosaic.Lib.StackMember
import Idealize.ShloMosaic.PureOps.Ideal.Laws

/-!
# The reference's dense stages, index by index

Each whole-array stage of the reference is read at one index over the extended reals and found to be the
index-level function of the specification: the projection is a sum over the 128 contracted features, a logit
is two sums over the 32 features of a head, the rectifier, the clipped prior and the exponential act on one
element, and a broadcast reads its operand at the coordinates it keeps.
-/

noncomputable section

namespace Cert.ReferenceIdeal.RefEdge

open Idealize.ShloMosaic Idealize.ShloMosaic.ValueIdx Cert.ReferenceIdeal
open Cert.ReferenceIdeal.Facts₀ Cert.ReferenceIdeal.Facts
open scoped BigOperators

/-! ## The projection -/

/-- The reference's matrix product at an index: row `a` of `x` against column `b` of `wt`, summed over the
    contracted feature. Its dimension numbers are those of a plain rows × contraction by contraction × columns
    product. -/
theorem dotProj_apply (x : FVec Ideal S50000x128 .f32) (wt : FVec Ideal S128x128 .f32) (a : Fin 50000) (b : Fin 128) :
    Host.dotGeneral (F := Ideal) dot_S50000x128_S128x128_S50000x128_1_0_0_1_n_n none x wt (ix2 a b)
      = ∑ c : Fin 128, x (ix2 a c) * wt (ix2 c b) :=
  StackMember.dotGeneral_plain_apply none x wt a b

/-- The host matrix product is the sum over the contracted axis. -/
theorem tProj_eq (x : FVec Ideal S50000x128 .f32) (W : FVec Ideal S128x128 .f32) :
    tProj (F := Ideal) x W
      = shapeCast S50000x4x32 (Cert.Gat.matG x (transpose S128x128 [1, 0] W transposes_S128x128_S128x128_1_0))
          shapeCasts_S50000x128_S50000x4x32 := by
  unfold tProj
  refine congrArg (fun v => shapeCast S50000x4x32 v shapeCasts_S50000x128_S50000x4x32) (funext fun i => ?_)
  obtain ⟨a, b, rfl⟩ : ∃ (a : Fin 50000) (b : Fin 128), i = ix2 a b := ⟨i 0, i 1, eq_ix2 i⟩
  exact dotProj_apply x _ a b

/-! ## The logits -/

/-- The last axis of an edge table is the one a logit sums over. -/
theorem redEdge : S800000x4x32.Reduces [2] S800000x4 := by decide

/-- The reduced index `(e, h)` with the summed coordinate `k` put back is `(e, h, k)`. -/
theorem redEdge_lift (e : Fin 800000) (h : Fin 4) (k : Fin 32) :
    redEdge.lift (ix2 e h) k = ix3 e h k := by
  funext a
  apply Fin.ext
  match a with
  | ⟨0, _⟩ => rfl
  | ⟨1, _⟩ => rfl
  | ⟨2, _⟩ => rfl

/-- One of the two sums of a logit: row `(e, h)` of a gathered table against head `h` of an attention vector,
    summed over the 32 features from the zero word. -/
theorem rowDot_apply (t : FVec Ideal S800000x4x32 .f32) (av : FVec Ideal S1x4x32 .f32) (e : Fin 800000) (h : Fin 4) :
    Host.reduceAdd (F := Ideal) (mulf t (broadcastInDim S800000x4x32 ![0, 1, 2] bcast_S1x4x32_S800000x4x32_0_1_2 av))
      (constant (F := Ideal) S_ .f32 0x00000000#32) reducesTo_S800000x4x32_S800000x4_d2 h_S_ (ix2 e h)
      = ∑ d : Fin 32, t (ix3 e h d) * av (ix3 (0 : Fin 1) h d) := by
  rw [hostReduceAdd_apply, Ideal.hostReduceAdd_single reducesTo_S800000x4x32_S800000x4_d2 redEdge, constant_apply,
    Ideal.ofBits_zero_f32, zero_add]
  show ∑ d : Fin 32, mulf t (broadcastInDim S800000x4x32 ![0, 1, 2] bcast_S1x4x32_S800000x4x32_0_1_2 av)
    (redEdge.lift (ix2 e h) d) = _
  refine Finset.sum_congr rfl fun d _ => ?_
  rw [redEdge_lift e h d, mulf_apply,
    broadcastInDim_apply ![0, 1, 2] bcast_S1x4x32_S800000x4x32_0_1_2 av (ix3 e h d) (ix3 (0 : Fin 1) h d)
      (fun a => match a with | ⟨0, _⟩ => rfl | ⟨1, _⟩ => rfl | ⟨2, _⟩ => rfl)]

/-- The reference's logit of edge `e` and head `h` is the specification's. -/
theorem tLogit_apply (hs hd : FVec Ideal S800000x4x32 .f32) (asrc adst : FVec Ideal S1x4x32 .f32) (e : Fin 800000) (h : Fin 4) :
    tLogit (F := Ideal) hs hd asrc adst (ix2 e h) = Cert.Gat.logit hs hd asrc adst e h := by
  unfold tLogit Cert.Gat.logit
  rw [addf_apply, rowDot_apply, rowDot_apply]

/-! ## The rectifier, the exponential and the clipped prior -/

/-- The host's exponential acts on each element. -/
theorem hostExp_apply {s : Shape} {φ : FTy} (v : FVec Ideal s φ) (i : s.Idx) : Host.exp v i = Ideal.exp (v i) := rfl

/-- The reference's rectifier at an index is the leaky rectifier of the element there. -/
theorem tLeaky_apply (z : FVec Ideal S800000x4 .f32) (e : Fin 800000) (h : Fin 4) :
    tLeaky (F := Ideal) z (ix2 e h) = Cert.Gat.leaky (z (ix2 e h)) := by
  unfold tLeaky Cert.Gat.leaky
  rw [select_apply, cmpf_apply, mulf_apply, broadcastInDim_scalar_apply, broadcastInDim_scalar_apply, constant_apply]
  rfl

/-- The clipped prior of edge `e`, read in its one column: the larger of `tiny` and the prior. -/
theorem tPrior_apply (ew : FVec Ideal S800000 .f32) (e : Fin 800000) :
    tPrior (F := Ideal) ew (ix2 e (0 : Fin 1)) = max Cert.Gat.tiny (ew (ix1 e)) := by
  unfold tPrior
  rw [broadcastInDim_apply ![0] bcast_S800000_S800000x1_0 _ (ix2 e (0 : Fin 1)) (ix1 e)
      (fun a => match a with | ⟨0, _⟩ => rfl),
    maximumf_apply, broadcastInDim_scalar_apply]
  rfl

/-! ## The edge weights and the messages -/

/-- The reference's weight of edge `e` and head `h`: the clipped prior (the maximum's operands exchanged)
    times the exponential of the rectified logit. -/
theorem tWeights_apply (hs hd : FVec Ideal S800000x4x32 .f32) (ew : FVec Ideal S800000 .f32)
    (asrc adst : FVec Ideal S1x4x32 .f32) (e : Fin 800000) (h : Fin 4) :
    tWeights (F := Ideal) hs hd ew asrc adst (ix2 e h)
      = max (ew (ix1 e)) Cert.Gat.tiny * Ideal.exp (Cert.Gat.leaky (Cert.Gat.logit hs hd asrc adst e h)) := by
  unfold tWeights
  rw [mulf_apply,
    broadcastInDim_apply ![0, 1] bcast_S800000x1_S800000x4_0_1 _ (ix2 e h) (ix2 e (0 : Fin 1))
      (fun a => match a with | ⟨0, _⟩ => rfl | ⟨1, _⟩ => rfl),
    tPrior_apply, max_comm, hostExp_apply, tLeaky_apply, tLogit_apply]

/-- The reference's edge weights are `Cert.Gat.edgeW`, the prior read through any column that holds it. -/
theorem tWeights_eq (hs hd : FVec Ideal S800000x4x32 .f32) (ew : FVec Ideal S800000 .f32)
    (ewc : FVec Ideal Cert.Gat.SE1 .f32) (hcol : ∀ e : Fin 800000, ewc (ix2 e (0 : Fin 1)) = ew (ix1 e))
    (asrc adst : FVec Ideal S1x4x32 .f32) :
    tWeights (F := Ideal) hs hd ew asrc adst = Cert.Gat.edgeW hs hd ewc asrc adst := by
  funext i
  obtain ⟨e, h, rfl⟩ : ∃ (e : Fin 800000) (h : Fin 4), i = ix2 e h := ⟨i 0, i 1, eq_ix2 i⟩
  rw [tWeights_apply]
  unfold Cert.Gat.edgeW
  show _ = max (ewc (ix2 e (0 : Fin 1))) Cert.Gat.tiny * Ideal.exp (Cert.Gat.leaky (Cert.Gat.logit hs hd asrc adst e h))
  rw [hcol e]

/-- The reference's messages are `Cert.Gat.edgeMsg`. -/
theorem tMsg_eq (hs hd : FVec Ideal S800000x4x32 .f32) (ew : FVec Ideal S800000 .f32)
    (ewc : FVec Ideal Cert.Gat.SE1 .f32) (hcol : ∀ e : Fin 800000, ewc (ix2 e (0 : Fin 1)) = ew (ix1 e))
    (asrc adst : FVec Ideal S1x4x32 .f32) :
    tMsg (tWeights (F := Ideal) hs hd ew asrc adst) hs = Cert.Gat.edgeMsg hs hd ewc asrc adst := by
  rw [tWeights_eq hs hd ew ewc hcol asrc adst]
  funext i
  obtain ⟨e, h, d, rfl⟩ : ∃ (e : Fin 800000) (h : Fin 4) (d : Fin 32), i = ix3 e h d := ⟨i 0, i 1, i 2, eq_ix3 i⟩
  unfold tMsg Cert.Gat.edgeMsg
  rw [mulf_apply,
    broadcastInDim_apply ![0, 1, 2] bcast_S800000x4x1_S800000x4x32_0_1_2 _ (ix3 e h d) (ix3 e h (0 : Fin 1))
      (fun a => match a with | ⟨0, _⟩ => rfl | ⟨1, _⟩ => rfl | ⟨2, _⟩ => rfl),
    broadcastInDim_apply ![0, 1] bcast_S800000x4_S800000x4x1_0_1 _ (ix3 e h (0 : Fin 1)) (ix2 e h)
      (fun a => match a with | ⟨0, _⟩ => rfl | ⟨1, _⟩ => rfl)]

/-! ## The normalisation -/

/-- The reference's normalisation is `Cert.Gat.normG`: the quotient is taken element by element, and the
    divisor at `(n, h, d)` is the summed weight at `(n, h)` plus `tiny`. -/
theorem tNorm_eq (o : FVec Ideal S50000x4x32 .f32) (a : FVec Ideal S50000x4 .f32) :
    tNorm (F := Ideal) o a = Cert.Gat.normG o a := by
  funext i
  obtain ⟨n, h, d, rfl⟩ : ∃ (n : Fin 50000) (h : Fin 4) (d : Fin 32), i = ix3 n h d := ⟨i 0, i 1, i 2, eq_ix3 i⟩
  unfold tNorm Cert.Gat.normG
  rw [hostDivf_apply,
    broadcastInDim_apply ![0, 1, 2] bcast_S50000x4x1_S50000x4x32_0_1_2 _ (ix3 n h d) (ix3 n h (0 : Fin 1))
      (fun a => match a with | ⟨0, _⟩ => rfl | ⟨1, _⟩ => rfl | ⟨2, _⟩ => rfl),
    addf_apply,
    broadcastInDim_apply ![0, 1] bcast_S50000x4_S50000x4x1_0_1 a (ix3 n h (0 : Fin 1)) (ix2 n h)
      (fun a => match a with | ⟨0, _⟩ => rfl | ⟨1, _⟩ => rfl),
    broadcastInDim_scalar_apply, constant_apply]

end Cert.ReferenceIdeal.RefEdge

end
-- ==== Proof.LibRowIndex.lean ====
import Idealize.ShloMosaic.Lib.StableHlo.Predicate

/-!
# Row gathers and row scatters read at an index

A table of `N` rows of `C` columns, indexed along its rows by a column of `n` positions:

* the row gather (the row axis collapsed and named by the one start-index component, the column axis kept
  whole) reads, at `(e, j)`, row `idx[e]` — read signed and clamped into the table — at column `j`;
* the row scatter (the row axis inserted and named by the one scatter-index component, the column axis the
  update's window) sends update `(e, j)` to row `idx[e]`, read signed and NOT clamped: an update that is kept
  lands on exactly the row its index names.
-/

namespace Idealize.ShloMosaic.RowIndex

open Idealize.ShloMosaic Idealize.ShloMosaic.StableHlo.Predicate

/-! ## The row scatter -/

/-- The start of update `y`'s window on the row axis is its scatter index, read signed. -/
theorem scatter_rows_start {N C n w : Nat} (d : ScatterDims ⟨2, ![N, C]⟩ ⟨2, ![n, 1]⟩ ⟨2, ![n, C]⟩)
    (hu : d.updateWindowDims = [1]) (hs : d.scatterDimsToOperandDims = [0]) (hv : d.indexVectorDim = 1)
    (idx : IVec ⟨2, ![n, 1]⟩ w) (y : (⟨2, ![n, C]⟩ : Shape).Idx) :
    d.start y idx 0 = (idx (ixP (n := n) (y 0))).toInt := by
  obtain ⟨uw, iw, sd, iv, wf⟩ := d
  dsimp only at hu hs hv
  subst hu hs hv
  unfold ScatterDims.start
  rw [dif_pos (List.mem_singleton.mpr rfl)]
  congr 2
  funext b
  match b with
  | ⟨0, _⟩ =>
    unfold ScatterDims.siIdx
    rw [dif_neg (by simp)]
    unfold ScatterDims.siCoord
    apply Fin.ext
    simp only [Fin.val_cast]
    have e : ∀ q : Fin 2, q = 0 → (y q).val = (y 0).val := fun q hq => by subst hq; rfl
    exact e _ (by rfl)
  | ⟨1, _⟩ =>
    unfold ScatterDims.siIdx
    rw [dif_pos (by simp)]
    apply Fin.ext
    show List.idxOf (0 : Fin 2) [0] = 0
    simp

/-- The row axis is inserted: an update has no window coordinate on it. -/
theorem scatter_rows_window0 {N C n : Nat} (d : ScatterDims ⟨2, ![N, C]⟩ ⟨2, ![n, 1]⟩ ⟨2, ![n, C]⟩)
    (hi : d.insertedWindowDims = [0]) (y : (⟨2, ![n, C]⟩ : Shape).Idx) : d.window y 0 = 0 := by
  unfold ScatterDims.window
  rw [dif_neg (by rw [ScatterDims.sKept, hi]; simp [Shape.kept])]

/-- An update of a row scatter that is kept lands on the row its index names. -/
theorem scatter_rows_lands {N C n w : Nat} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (y : (⟨2, ![n, C]⟩ : Shape).Idx)
    (i : (⟨2, ![N, C]⟩ : Shape).Idx) (h : d.resultIdx? y idx = some i) :
    (idx (ixP (n := n) (y 0))).toInt = ((i 0).val : Int) := by
  have hst := scatter_rows_start d hu hs hv idx y
  have hw := scatter_rows_window0 d hi y
  unfold ScatterDims.resultIdx? at h
  split at h
  · next hall =>
    have h0 := (hall 0).1
    have hi0 := congrArg Fin.val (congrFun (Option.some.inj h) 0)
    simp only [] at hi0
    omega
  · exact absurd h (by simp)

/-! ## The row gather -/

/-- The start of result `y`'s slice on the row axis is its start index, read signed and clamped into the table. -/
theorem gather_rows_start {N C n w : Nat} (d : GatherDims ⟨2, ![N, C]⟩ ⟨2, ![n, 1]⟩ ⟨2, ![n, C]⟩)
    (hoff : d.offsetDims = [1]) (hcoll : d.collapsedSliceDims = [0])
    (hsim : d.startIndexMap = [0]) (hivd : d.indexVectorDim = 1)
    (idx : IVec ⟨2, ![n, 1]⟩ w) (y : (⟨2, ![n, C]⟩ : Shape).Idx) :
    d.start y idx 0 = min (idx (ixP (n := n) (y 0))).toInt.toNat (N - 1) := by
  have hsl : d.sliceSizes 0 = 1 := d.slice_collapsed 0 (by rw [hcoll]; exact List.mem_singleton.mpr rfl)
  obtain ⟨od, cd, ob, sb, sm, iv, ss, wf⟩ := d
  dsimp only at hoff hcoll hsim hivd hsl
  subst hoff hcoll hsim hivd
  unfold GatherDims.start
  rw [dif_pos (List.mem_singleton.mpr rfl)]
  show min _ (N - ss 0) = _
  rw [hsl]
  congr 3
  congr 1
  funext b
  match b with
  | ⟨0, _⟩ =>
    unfold GatherDims.siIdx
    rw [dif_neg (by simp)]
    unfold GatherDims.siCoord
    apply Fin.ext
    simp only [Fin.val_cast]
    have e : ∀ q : Fin 2, q = 0 → (y q).val = (y 0).val := fun q hq => by subst hq; rfl
    exact e _ (by rfl)
  | ⟨1, _⟩ =>
    unfold GatherDims.siIdx
    rw [dif_pos (by simp)]
    apply Fin.ext
    show List.idxOf (0 : Fin 2) [0] = 0
    simp

/-- The column axis is the one kept axis: result `y`'s offset on it is its own column. -/
theorem gather_rows_off1 {N C n : Nat} (d : GatherDims ⟨2, ![N, C]⟩ ⟨2, ![n, 1]⟩ ⟨2, ![n, C]⟩)
    (hoff : d.offsetDims = [1]) (hcoll : d.collapsedSliceDims = [0]) (hob : d.operandBatchingDims = [])
    (y : (⟨2, ![n, C]⟩ : Shape).Idx) : d.offCoord y 1 = (y 1).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 2, q = 1 → (y q).val = (y 1).val := fun q hq => by subst hq; rfl
  exact e _ (by rfl)

/-- A row gather read at `(e, j)`: row `idx[e]`, read signed and clamped into the table, at column `j`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) (hN : 0 < N) :
    Host.gather d x idx (ij e j) = x (ij ⟨min (idx (ixP e)).toInt.toNat (N - 1), by omega⟩ j) := by
  unfold Host.gather
  congr 1
  funext a
  have hnb : ∀ a : Fin 2, a ∉ d.operandBatchingDims := fun a => by rw [hob]; exact List.not_mem_nil
  match a with
  | ⟨0, _⟩ =>
    apply Fin.ext
    have hb := d.batchCoord_eq_zero (ij e j) 0 (hnb 0)
    have ho := d.offCoord_eq_zero (ij e j) 0 (by rw [GatherDims.mem_sKept, hcoll]; simp)
    have hst : d.start (ij e j) idx 0 = min (idx (ixP e)).toInt.toNat (N - 1) :=
      gather_rows_start d hoff hcoll hsim hivd idx (ij e j)
    show d.start (ij e j) idx 0 + d.batchCoord (ij e j) 0 + d.offCoord (ij e j) 0 = min (idx (ixP e)).toInt.toNat (N - 1)
    omega
  | ⟨1, _⟩ =>
    apply Fin.ext
    have hb := d.batchCoord_eq_zero (ij e j) 1 (hnb 1)
    have ho : d.offCoord (ij e j) 1 = j.val := gather_rows_off1 d hoff hcoll hob (ij e j)
    have hst : d.start (ij e j) idx 1 = 0 := by
      unfold GatherDims.start
      rw [dif_neg (by rw [hsim]; simp)]
    show d.start (ij e j) idx 1 + d.batchCoord (ij e j) 1 + d.offCoord (ij e j) 1 = j.val
    omega

end Idealize.ShloMosaic.RowIndex
-- ==== Proof.Rows.lean ====
import proofs.«428315_j2946347565058_3_alg».proof.Proof.KerTerm
import proofs.«428315_j2946347565058_3_alg».proof.Proof.LibRowIndex
import Idealize.ShloMosaic.Lib.Pipeline.Value
import Idealize.ShloMosaic.Lib.ValueIdx
import Idealize.ShloMosaic.Lib.StableHlo.Predicate
import Idealize.ShloMosaic.Lib.ReduceAll

noncomputable section

namespace Cert.KernelIdeal.Rows

open Idealize.ShloMosaic Idealize.ShloMosaic.ValueIdx Cert.KernelIdeal
open Cert.KernelIdeal.Facts₀ Cert.KernelIdeal.Facts

/-- The prior's column holds the prior. -/
theorem kPriorCol_apply (ew : FVec Ideal S800000 .f32) (e : Fin 800000) :
    kPriorCol ew (ix2 e (0 : Fin 1)) = ew (ix1 e) := by
  unfold kPriorCol
  exact shapeCast_apply ew _ _ _ (by
    rw [Shape.rowMajor_val_two, Shape.rowMajor_val_one]
    show e.val = e.val * 1 + 0
    omega)

/-- The wrapped row number of edge `e`: the row number plus the table's height where it is negative. -/
theorem kWrap_apply (i : IVec S800000 32) (e : Fin 800000) :
    kWrap i (ix2 e (0 : Fin 1)) =
      Scalar.select (Scalar.cmpi .slt (i (ix1 e)) 0#32) (Scalar.addi (i (ix1 e)) 50000#32) (i (ix1 e)) := by
  unfold kWrap
  rw [broadcastInDim_apply _ _ _ _ (ix1 e) (by intro a; match a with | ⟨0, _⟩ => rfl)]
  rfl

/-- A valid (possibly negative) row number wraps into the table. -/
theorem wrap_range (x : BitVec 32) (hr : -50000 ≤ x.toInt ∧ x.toInt < 50000) :
    ∃ n : Int, Affine.IsInt (Scalar.select (Scalar.cmpi .slt x 0#32) (Scalar.addi x 50000#32) x) n ∧ 0 ≤ n ∧ n ≤ 49999 := by
  have hx := Affine.word x
  have h0 : Affine.IsInt (0#32) 0 := Affine.ofNat 0 ⟨rfl, by norm_num⟩
  have h5 : Affine.IsInt (50000#32) 50000 := Affine.ofNat 50000 ⟨rfl, by norm_num⟩
  by_cases hneg : x.toInt < 0
  · exact ⟨x.toInt + 50000,
      Affine.select_holds (Affine.slt_holds hx h0 hneg) (Affine.addi hx h5 ⟨rfl, by omega, by omega⟩) hx rfl,
      by omega, by omega⟩
  · exact ⟨x.toInt, Affine.select_fails (Affine.slt_fails hx h0 hneg) (Affine.addi hx h5 ⟨rfl, by omega, by omega⟩) hx rfl,
      by omega, by omega⟩

/-- A fold by `and` from 1 over words that are all 1 is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], init, h, _ => h
  | a :: l, init, h, hf => by
    rw [List.foldl_cons]
    refine foldl_andi_one f l _ ?_ (fun n hn => hf n (List.mem_cons_of_mem _ hn))
    rw [h, hf a List.mem_cons_self]
    decide

/-- An index of the column of wrapped row numbers that reduces into edge `e` is `(e, 0)`. -/
theorem drop_col (idx : S800000x1.Idx) (e : Fin 800000)
    (h : reducesTo_S800000x1_S800000_d1.drop idx = (ix1 e : S800000.Idx)) : idx = ix2 e (0 : Fin 1) := by
  have hR : S800000x1.Reduces [1] S800000 := by decide
  rw [Shape.ReducesTo.drop_eq_drop _ hR] at h
  have hl := hR.lift_drop idx
  rw [h] at hl
  rw [← hl]
  funext c
  apply Fin.ext
  rw [hR.lift_val]
  match c with
  | ⟨0, _⟩ => rfl
  | ⟨1, _⟩ =>
    show (idx 1).val = 0
    have := (idx 1).isLt
    change (idx 1).val < 1 at this
    omega

/-- A valid row number is inside the table after the wrap. -/
theorem kInRange_apply (i : IVec S800000 32) (e : Fin 800000)
    (hr : -50000 ≤ (i (ix1 e)).toInt ∧ (i (ix1 e)).toInt < 50000) : kInRange i (ix1 e) = 1#1 := by
  unfold kInRange
  rw [Host.reduce_eq_foldl]
  refine foldl_andi_one _ _ _ rfl ?_
  intro idx hidx
  have hd : reducesTo_S800000x1_S800000_d1.drop idx = (ix1 e : S800000.Idx) := by
    have := (List.mem_filter.1 hidx).2
    simpa using this
  rw [drop_col idx e hd]
  obtain ⟨n, hn, h0, h1⟩ := wrap_range (i (ix1 e)) hr
  rw [← kWrap_apply] at hn
  exact Affine.andi_holds (Affine.sge_holds hn (Affine.ofNat 0 ⟨rfl, by norm_num⟩) h0)
    (Affine.sle_holds hn (Affine.ofNat 49999 ⟨rfl, by norm_num⟩) h1)

/-- Where a row number is a valid (possibly negative) row number of the table, the masked lookup reads the
    gathered row. -/
theorem kTake_row (h : FVec Ideal S50000x4x32 .f32) (i : IVec S800000 32) (e : Fin 800000)
    (hr : -50000 ≤ (i (ix1 e)).toInt ∧ (i (ix1 e)).toInt < 50000) (hh : Fin 4) (d : Fin 32) :
    kTake h i (ix3 e hh d) = kGather h i (ix3 e hh d) := by
  unfold kTake
  rw [select_apply, broadcastInDim_apply _ _ _ _ (ix1 e) (by intro a; match a with | ⟨0, _⟩ => rfl),
    kInRange_apply i e hr, select_one]

/-- Where every row number is valid, the masked lookup is the plain gather. -/
theorem kTake_eq (h : FVec Ideal S50000x4x32 .f32) (i : IVec S800000 32)
    (hr : ∀ e : Fin 800000, -50000 ≤ (i (ix1 e)).toInt ∧ (i (ix1 e)).toInt < 50000) :
    kTake h i = kGather h i := by
  funext j
  rw [eq_ix3 j]
  exact kTake_row h i _ (hr _) _ _

/-! ## The scatter of rows of a rank-3 table

A table of `N` rows of `A × B` entries, indexed along its rows by a column of `n` positions: the row axis is
inserted and named by the one scatter-index component, the two other axes are the update's window. -/

/-- The start of update `y`'s window on the row axis is its scatter index, read signed. -/
theorem scatter3_rows_start {N A B n w : Nat} (d : ScatterDims ⟨3, ![N, A, B]⟩ ⟨2, ![n, 1]⟩ ⟨3, ![n, A, B]⟩)
    (hu : d.updateWindowDims = [1, 2]) (hs : d.scatterDimsToOperandDims = [0]) (hv : d.indexVectorDim = 1)
    (idx : IVec ⟨2, ![n, 1]⟩ w) (y : (⟨3, ![n, A, B]⟩ : Shape).Idx) :
    d.start y idx 0 = (idx (StableHlo.Predicate.ixP (n := n) (y 0))).toInt := by
  obtain ⟨uw, iw, sd, iv, wf⟩ := d
  dsimp only at hu hs hv
  subst hu hs hv
  unfold ScatterDims.start
  rw [dif_pos (List.mem_singleton.mpr rfl)]
  congr 2
  funext b
  match b with
  | ⟨0, _⟩ =>
    unfold ScatterDims.siIdx
    rw [dif_neg (by simp)]
    unfold ScatterDims.siCoord
    apply Fin.ext
    simp only [Fin.val_cast]
    have e : ∀ q : Fin 3, q = 0 → (y q).val = (y 0).val := fun q hq => by subst hq; rfl
    exact e _ (by rfl)
  | ⟨1, _⟩ =>
    unfold ScatterDims.siIdx
    rw [dif_pos (by simp)]
    apply Fin.ext
    show List.idxOf (0 : Fin 3) [0] = 0
    simp

/-- The row axis is inserted: an update has no window coordinate on it. -/
theorem scatter3_rows_window0 {N A B n : Nat} (d : ScatterDims ⟨3, ![N, A, B]⟩ ⟨2, ![n, 1]⟩ ⟨3, ![n, A, B]⟩)
    (hi : d.insertedWindowDims = [0]) (y : (⟨3, ![n, A, B]⟩ : Shape).Idx) : d.window y 0 = 0 := by
  unfold ScatterDims.window
  rw [dif_neg (by rw [ScatterDims.sKept, hi]; simp [Shape.kept])]

/-- An update of a row scatter that is kept lands on the row its index names. -/
theorem scatter3_rows_lands {N A B n w : Nat} (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1) (idx : IVec ⟨2, ![n, 1]⟩ w) (y : (⟨3, ![n, A, B]⟩ : Shape).Idx)
    (i : (⟨3, ![N, A, B]⟩ : Shape).Idx) (h : d.resultIdx? y idx = some i) :
    (idx (StableHlo.Predicate.ixP (n := n) (y 0))).toInt = ((i 0).val : Int) := by
  have hst := scatter3_rows_start d hu hs hv idx y
  have hw := scatter3_rows_window0 d hi y
  unfold ScatterDims.resultIdx? at h
  split at h
  · next hall =>
    have h0 := (hall 0).1
    have hi0 := congrArg Fin.val (congrFun (Option.some.inj h) 0)
    simp only [] at hi0
    omega
  · exact absurd h (by simp)

/-- The column of target row numbers at `(e, 0)` is the target row number of edge `e`. -/
theorem dstCol_apply (dst : IVec S800000 32) (e : Fin 800000) :
    broadcastInDim S800000x1 ![0] bcast_S800000_S800000x1_0 dst (StableHlo.Predicate.ixP e) = dst (ix1 e) :=
  broadcastInDim_apply _ _ _ _ (ix1 e) (by intro a; match a with | ⟨0, _⟩ => rfl)

/-- The per-node sum of messages reads only the messages of edges whose target row number is inside the table
    (the others are dropped). -/
theorem kSumMsg_congr (dst : IVec S800000 32) (u u' : FVec Ideal S800000x4x32 .f32)
    (hu : ∀ e : Fin 800000, (0 ≤ (dst (ix1 e)).toInt ∧ (dst (ix1 e)).toInt < 50000) →
      ∀ (hh : Fin 4) (d : Fin 32), u (ix3 e hh d) = u' (ix3 e hh d)) :
    kSumMsg dst u = kSumMsg dst u' := by
  unfold kSumMsg Host.scatterAdd
  rw [Ideal.hostScatterAdd_def, Ideal.hostScatterAdd_def]
  unfold Ideal.hostScatterAdd
  funext i
  refine congrArg₂ (· + ·) rfl (Finset.sum_congr rfl ?_)
  intro j hj
  have hl := scatter3_rows_lands scatter_S50000x4x32_S800000x1_S800000x4x32_12_0_0_1 rfl rfl rfl rfl _ j i
    (Finset.mem_filter.1 hj).2
  have hl' : (dst (ix1 (j 0))).toInt = ((i 0).val : Int) := by
    rw [← dstCol_apply dst (j 0)]
    exact hl
  have hlt : (i 0).val < 50000 := (i 0).isLt
  rw [eq_ix3 j]
  exact hu _ ⟨by omega, by omega⟩ _ _

/-- The per-node sum of weights reads only the weights of edges whose target row number is inside the table. -/
theorem kSumW_congr (dst : IVec S800000 32) (u u' : FVec Ideal S800000x4 .f32)
    (hu : ∀ e : Fin 800000, (0 ≤ (dst (ix1 e)).toInt ∧ (dst (ix1 e)).toInt < 50000) →
      ∀ hh : Fin 4, u (ix2 e hh) = u' (ix2 e hh)) :
    kSumW dst u = kSumW dst u' := by
  unfold kSumW Host.scatterAdd
  rw [Ideal.hostScatterAdd_def, Ideal.hostScatterAdd_def]
  unfold Ideal.hostScatterAdd
  funext i
  refine congrArg₂ (· + ·) rfl (Finset.sum_congr rfl ?_)
  intro j hj
  have hl := RowIndex.scatter_rows_lands scatter_S50000x4_S800000x1_S800000x4_1_0_0_1 rfl rfl rfl rfl _ j i
    (Finset.mem_filter.1 hj).2
  have hl' : (dst (ix1 (j 0))).toInt = ((i 0).val : Int) := by
    rw [← dstCol_apply dst (j 0)]
    exact hl
  have hlt : (i 0).val < 50000 := (i 0).isLt
  rw [eq_ix2 j]
  exact hu _ ⟨by omega, by omega⟩ _

end Cert.KernelIdeal.Rows

end
-- ==== Proof.Bridge.lean ====
import proofs.«428315_j2946347565058_3_alg».proof.Proof.KerTerm
import proofs.«428315_j2946347565058_3_alg».proof.Proof.RefTerm
import proofs.«428315_j2946347565058_3_alg».proof.Proof.RefEdge
import proofs.«428315_j2946347565058_3_alg».proof.Proof.Rows

noncomputable section

namespace Cert.Bridge

open Idealize.ShloMosaic Idealize.ShloMosaic.ValueIdx
open Cert.KernelIdeal (kProj kRow0 kRow1 kWrap kGather kTake kPriorCol kAsrc kAdst kSumMsg kSumW kerOut)
open Cert.ReferenceIdeal (tProj tRow0 tRow1 tGather tAsrc tAdst tWeights tMsg tSumMsg tSumW tNorm refOut)

/-! ## The stages the two programs share

The two programs slice the edge list and the attention vectors, gather rows and sum per target node with the same
operations over the same shapes; each pair of stages is one function. -/

theorem row0_eq (ei : IVec Cert.KernelIdeal.S2x800000 32) : tRow0 ei = kRow0 ei := rfl
theorem row1_eq (ei : IVec Cert.KernelIdeal.S2x800000 32) : tRow1 ei = kRow1 ei := rfl
theorem asrc_eq (att : FVec Ideal Cert.KernelIdeal.S1x4x64 .f32) : tAsrc (F := Ideal) att = kAsrc att := rfl
theorem adst_eq (att : FVec Ideal Cert.KernelIdeal.S1x4x64 .f32) : tAdst (F := Ideal) att = kAdst att := rfl
theorem gather_eq (h : FVec Ideal Cert.KernelIdeal.S50000x4x32 .f32) (i : IVec Cert.KernelIdeal.S800000 32) :
    tGather (F := Ideal) h i = kGather h i := rfl
theorem sumMsg_eq (dst : IVec Cert.KernelIdeal.S800000 32) (u : FVec Ideal Cert.KernelIdeal.S800000x4x32 .f32) :
    tSumMsg (F := Ideal) dst u = kSumMsg dst u := rfl
theorem sumW_eq (dst : IVec Cert.KernelIdeal.S800000 32) (u : FVec Ideal Cert.KernelIdeal.S800000x4 .f32) :
    tSumW (F := Ideal) dst u = kSumW dst u := rfl

/-- The reference's projection is the kernel program's: the host matrix product is the sum over the contracted axis. -/
theorem proj_eq (x : FVec Ideal Cert.KernelIdeal.S50000x128 .f32) (W : FVec Ideal Cert.KernelIdeal.S128x128 .f32) :
    tProj (F := Ideal) x W = kProj x W :=
  Cert.ReferenceIdeal.RefEdge.tProj_eq x W

/-- Where every source row number is a valid (possibly negative) row number of the node table, the two programs'
    results are one function of the argument arrays: the source rows are the gathered rows on both sides; a target row
    read differently (its number outside the table after the wrap) belongs to an edge both per-node sums drop. -/
theorem kerOut_eq_refOut (x : FVec Ideal Cert.KernelIdeal.S50000x128 .f32) (ei : IVec Cert.KernelIdeal.S2x800000 32)
    (ew : FVec Ideal Cert.KernelIdeal.S800000 .f32) (W : FVec Ideal Cert.KernelIdeal.S128x128 .f32)
    (att : FVec Ideal Cert.KernelIdeal.S1x4x64 .f32)
    (hsrc : ∀ e : Fin 800000, -50000 ≤ ((Cert.KernelIdeal.kRow0 ei) (ix1 e)).toInt ∧ ((Cert.KernelIdeal.kRow0 ei) (ix1 e)).toInt < 50000) :
    Cert.KernelIdeal.kerOut x ei ew W att = Cert.ReferenceIdeal.refOut (F := Ideal) x ei ew W att := by
  have hcol := Cert.KernelIdeal.Rows.kPriorCol_apply ew
  unfold Cert.ReferenceIdeal.refOut Cert.KernelIdeal.kerOut
  rw [Cert.ReferenceIdeal.RefEdge.tNorm_eq,
    Cert.ReferenceIdeal.RefEdge.tMsg_eq _ _ ew (kPriorCol ew) hcol,
    Cert.ReferenceIdeal.RefEdge.tWeights_eq _ _ ew (kPriorCol ew) hcol,
    proj_eq, row0_eq, row1_eq, asrc_eq, adst_eq, gather_eq, gather_eq, sumMsg_eq, sumW_eq,
    Cert.KernelIdeal.Rows.kTake_eq (kProj x W) (kRow0 ei) hsrc]
  have hmsg : kSumMsg (kRow1 ei)
        (Cert.Gat.edgeMsg (kGather (kProj x W) (kRow0 ei)) (kTake (kProj x W) (kRow1 ei)) (kPriorCol ew) (kAsrc att) (kAdst att))
      = kSumMsg (kRow1 ei)
        (Cert.Gat.edgeMsg (kGather (kProj x W) (kRow0 ei)) (kGather (kProj x W) (kRow1 ei)) (kPriorCol ew) (kAsrc att) (kAdst att)) :=
    Cert.KernelIdeal.Rows.kSumMsg_congr _ _ _ fun e he hh d =>
      Cert.Gat.edgeMsg_congr_row _ _ _ _ _ _ _ e hh d (fun _ => rfl)
        (fun d' => Cert.KernelIdeal.Rows.kTake_row (kProj x W) (kRow1 ei) e ⟨by omega, he.2⟩ hh d')
  have hw : kSumW (kRow1 ei)
        (Cert.Gat.edgeW (kGather (kProj x W) (kRow0 ei)) (kTake (kProj x W) (kRow1 ei)) (kPriorCol ew) (kAsrc att) (kAdst att))
      = kSumW (kRow1 ei)
        (Cert.Gat.edgeW (kGather (kProj x W) (kRow0 ei)) (kGather (kProj x W) (kRow1 ei)) (kPriorCol ew) (kAsrc att) (kAdst att)) :=
    Cert.KernelIdeal.Rows.kSumW_congr _ _ _ fun e he hh =>
      Cert.Gat.edgeW_congr_row _ _ _ _ _ _ _ e hh (fun _ => rfl)
        (fun d' => Cert.KernelIdeal.Rows.kTake_row (kProj x W) (kRow1 ei) e ⟨by omega, he.2⟩ hh d')
  rw [hmsg, hw]

end Cert.Bridge

end
-- ==== Proof.lean ====
/-
  One graph-attention layer: the kernel program (three dense stages run block by block, with the row lookups and the
  per-node sums on the host) against the whole-array reference.

  Both programs compute, for every node, the sum over its incoming edges of `weight · source row` divided by the sum
  of the weights plus a small constant, the weight of an edge being its clipped prior times the exponential of a
  rectified logit. Over the extended reals the two differ in one place only: a row number that is still outside the
  node table after a negative number has been wrapped reads the nearest row in the reference and a fill value in
  the kernel program. For a target row number that makes no difference, because an edge whose target is outside the
  table is dropped from both sums; for a source row number it does, so the claim is stated where every source row
  number is a valid (possibly negative) row number of the table.

  The frames of the two kernel programs are the generated ones; the reference's run, the kernel program's value and
  the equality of the two results are in the modules imported below.
-/
import proofs.«428315_j2946347565058_3_alg».proof.Defs
import proofs.«428315_j2946347565058_3_alg».proof.Proof.Gen.Kernel
import proofs.«428315_j2946347565058_3_alg».proof.Proof.Gen.Kernel.Skeleton
import proofs.«428315_j2946347565058_3_alg».proof.Proof.Gen.Kernel.Launch
import proofs.«428315_j2946347565058_3_alg».proof.Proof.Gen.Kernel.Points
import proofs.«428315_j2946347565058_3_alg».proof.Proof.Gen.Kernel.Frame
import proofs.«428315_j2946347565058_3_alg».proof.Proof.Gen.KernelIdeal
import proofs.«428315_j2946347565058_3_alg».proof.Proof.Gen.KernelIdeal.Skeleton
import proofs.«428315_j2946347565058_3_alg».proof.Proof.Gen.KernelIdeal.Launch
import proofs.«428315_j2946347565058_3_alg».proof.Proof.Gen.KernelIdeal.Points
import proofs.«428315_j2946347565058_3_alg».proof.Proof.Gen.KernelIdeal.Frame
import proofs.«428315_j2946347565058_3_alg».proof.Proof.Gen.ReferenceIdeal
import proofs.«428315_j2946347565058_3_alg».proof.Proof.Gen.Pre_finite_inputs
import proofs.«428315_j2946347565058_3_alg».proof.Proof.KernelValue
import proofs.«428315_j2946347565058_3_alg».proof.Proof.RefRun
import proofs.«428315_j2946347565058_3_alg».proof.Proof.PreDecode
import proofs.«428315_j2946347565058_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Both runs end with the result at one function of the argument arrays: the kernel program's `kerOut`, which under
    the precondition's bound on the source row numbers is the reference's `refOut`. -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2]
  exact (Cert.Bridge.kerOut_eq_refOut _ _ _ _ _ (fun e => Cert.PreDecode.src_range m hpre c e)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
